-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S2000000 : Shape := ⟨1, ![2000000]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel

variable [Facts]

def fn {F : FTy → Type} [FloatOps F] (main_arg0 : FVec F S2000000x16 .f32) (main_arg1 : IVec S2000000 32) (main_arg2 : IVec S2000000 32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  main_v3
-- ==== Kernel.lean ====
abbrev S2000000x16 : Shape := ⟨2, ![2000000, 16]⟩
abbrev S2000000 : Shape := ⟨1, ![2000000]⟩
abbrev S2000000x1 : Shape := ⟨2, ![2000000, 1]⟩
abbrev S2x512x16 : Shape := ⟨3, ![2, 512, 16]⟩
abbrev S2x1x512 : Shape := ⟨3, ![2, 1, 512]⟩
abbrev S2000x16 : Shape := ⟨2, ![2000, 16]⟩
abbrev S2000x1 : Shape := ⟨2, ![2000, 1]⟩
abbrev S1x512x16 : Shape := ⟨3, ![1, 512, 16]⟩
abbrev S1x1x512 : Shape := ⟨3, ![1, 1, 512]⟩
abbrev S512x16 : Shape := ⟨2, ![512, 16]⟩
abbrev S1x512 : Shape := ⟨2, ![1, 512]⟩
abbrev S2000 : Shape := ⟨1, ![2000]⟩
abbrev S2000x512 : Shape := ⟨2, ![2000, 512]⟩
abbrev S512 : Shape := ⟨1, ![512]⟩
abbrev S_ : Shape := ⟨0, ![]⟩
abbrev S512x1 : Shape := ⟨2, ![512, 1]⟩
abbrev S8x64 : Shape := ⟨2, ![8, 64]⟩
abbrev S8 : Shape := ⟨1, ![8]⟩
abbrev S8x64x16 : Shape := ⟨3, ![8, 64, 16]⟩
abbrev S8x64x1x16 : Shape := ⟨4, ![8, 64, 1, 16]⟩
abbrev S8x1x64x16 : Shape := ⟨4, ![8, 1, 64, 16]⟩
abbrev S8x64x64x16 : Shape := ⟨4, ![8, 64, 64, 16]⟩
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 67
  | .vmem => 19
  | .smem => 0
  | _ => 0

abbrev bufTy : (tb : Table) → Fin (tcTables nBuf tb) → BufTy
  | .hbm, ⟨0, _⟩ => ⟨S2000000x16, .f32⟩
  | .hbm, ⟨1, _⟩ => ⟨S2000000, .i32⟩
  | .hbm, ⟨2, _⟩ => ⟨S2000000, .i32⟩
  | .hbm, ⟨3, _⟩ => ⟨S2000000x1, .i32⟩
  | .hbm, ⟨4, _⟩ => ⟨S2000000x1, .i32⟩
  | .hbm, ⟨5, _⟩ => ⟨S2x512x16, .f32⟩
  | .hbm, ⟨6, _⟩ => ⟨S2x1x512, .f32⟩
  | .hbm, ⟨7, _⟩ => ⟨S_, .f32⟩
  | .hbm, ⟨8, _⟩ => ⟨S512x16, .f32⟩
  | .hbm, ⟨9, _⟩ => ⟨S_, .f32⟩
  | .hbm, ⟨10, _⟩ => ⟨S1x512, .f32⟩
  | .hbm, ⟨11, _⟩ => ⟨S512, .f32⟩
  | .hbm, ⟨12, _⟩ => ⟨S512x1, .f32⟩
  | .hbm, ⟨13, _⟩ => ⟨S512x16, .f32⟩
  | .hbm, ⟨14, _⟩ => ⟨S512x16, .f32⟩
  | .hbm, ⟨15, _⟩ => ⟨S2x1x512, .f32⟩
  | .hbm, ⟨16, _⟩ => ⟨S_, .f32⟩
  | .hbm, ⟨17, _⟩ => ⟨S1x512, .f32⟩
  | .hbm, ⟨18, _⟩ => ⟨S512, .f32⟩
  | .hbm, ⟨19, _⟩ => ⟨S8x64, .f32⟩
  | .hbm, ⟨20, _⟩ => ⟨S8x64, .f32⟩
  | .hbm, ⟨21, _⟩ => ⟨S_, .f32⟩
  | .hbm, ⟨22, _⟩ => ⟨S8x64, .f32⟩
  | .hbm, ⟨23, _⟩ => ⟨S8x64, .f32⟩
  | .hbm, ⟨24, _⟩ => ⟨S8x64, .f32⟩
  | .hbm, ⟨25, _⟩ => ⟨S_, .f32⟩
  | .hbm, ⟨26, _⟩ => ⟨S8, .f32⟩
  | .hbm, ⟨27, _⟩ => ⟨S8x64x16, .f32⟩
  | .hbm, ⟨28, _⟩ => ⟨S8x64x1x16, .f32⟩
  | .hbm, ⟨29, _⟩ => ⟨S8x1x64x16, .f32⟩
  | .hbm, ⟨30, _⟩ => ⟨S8x64x64x16, .f32⟩
  | .hbm, ⟨31, _⟩ => ⟨S8x64x64x16, .f32⟩
  | .hbm, ⟨32, _⟩ => ⟨S8x64x64x16, .f32⟩
  | .hbm, ⟨33, _⟩ => ⟨S8x64x64x16, .f32⟩
  | .hbm, ⟨34, _⟩ => ⟨S_, .f32⟩
  | .hbm, ⟨35, _⟩ => ⟨S8x64x64, .f32⟩
  | .hbm, ⟨36, _⟩ => ⟨S_, .f32⟩
  | .hbm, ⟨37, _⟩ => ⟨S8x64x64, .f32⟩
  | .hbm, ⟨38, _⟩ => ⟨S8x64x64, .f32⟩
  | .hbm, ⟨39, _⟩ => ⟨S_, .f32⟩
  | .hbm, ⟨40, _⟩ => ⟨S8x64x64, .f32⟩
  | .hbm, ⟨41, _⟩ => ⟨S8x64x64, .f32⟩
  | .hbm, ⟨42, _⟩ => ⟨S8x64x64, .f32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S64x64, .i1⟩
  | .hbm, ⟨49, _⟩ => ⟨S64x64, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S1x64x64, .f32⟩
  | .hbm, ⟨54, _⟩ => ⟨S8x64x64, .f32⟩
  | .hbm, ⟨55, _⟩ => ⟨S8x64x64, .f32⟩
  | .hbm, ⟨56, _⟩ => ⟨S_, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S_, .f32⟩
  | .local _ .vmem, ⟨0, _⟩ => ⟨S2000x16, .f32⟩
  | .local _ .vmem, ⟨1, _⟩ => ⟨S2000x16, .f32⟩
  | .local _ .vmem, ⟨2, _⟩ => ⟨S2000x1, .i32⟩
  | .local _ .vmem, ⟨3, _⟩ => ⟨S2000x1, .i32⟩
  | .local _ .vmem, ⟨4, _⟩ => ⟨S2000x1, .i32⟩
  | .local _ .vmem, ⟨5, _⟩ => ⟨S2000x1, .i32⟩
  | .local _ .vmem, ⟨6, _⟩ => ⟨S1x512x16, .f32⟩
  | .local _ .vmem, ⟨7, _⟩ => ⟨S1x512x16, .f32⟩
  | .local _ .vmem, ⟨8, _⟩ => ⟨S1x1x512, .f32⟩
  | .local _ .vmem, ⟨9, _⟩ => ⟨S1x1x512, .f32⟩
  | .local _ .vmem, ⟨10, _⟩ => ⟨S2000x16, .f32⟩
  | .local _ .vmem, ⟨11, _⟩ => ⟨S2000x16, .f32⟩
  | .local _ .vmem, ⟨12, _⟩ => ⟨S2000x1, .i32⟩
  | .local _ .vmem, ⟨13, _⟩ => ⟨S2000x1, .i32⟩
  | .local _ .vmem, ⟨14, _⟩ => ⟨S2000x1, .i32⟩
  | .local _ .vmem, ⟨15, _⟩ => ⟨S2000x1, .i32⟩
  | .local _ .vmem, ⟨16, _⟩ => ⟨S512x16, .f32⟩
  | .local _ .vmem, ⟨17, _⟩ => ⟨S1x1x512, .f32⟩
  | .local _ .vmem, ⟨18, _⟩ => ⟨S1x1x512, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![2, 500], ![false, false]⟩

def cc0_transform_0 (i : grid0.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 500], ![false, false]⟩

def cc1_transform_0 (i : grid1.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S512x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S2000000_S2000000x1 : S2000000.ShapeCasts S2000000x1
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  shapeCasts_S512x16_S1x512x16 : S512x16.ShapeCasts S1x512x16
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S2000x16_S2000x16_0_0 : ∀ a, (![0, 0] : Fin 2 → Nat) a + S2000x16.size a ≤ S2000x16.size a
  h_S2000x16 : 0 < S2000x16.numel
  reduces_S2000x16_S2000 : S2000x16.Reduces [1] S2000
  shapeCasts_S2000_S2000x1 : S2000.ShapeCasts S2000x1
  broadcasts_S2000x1_S2000x16 : S2000x1.Broadcasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  bitsLt_bf16_f32 : FTy.bits .bf16 < FTy.bits .f32
  reduces_S2000x512_S512 : S2000x512.Reduces [0] S512
  shapeCasts_S512_S1x512 : S512.ShapeCasts S1x512
  reducesTo_S2x512x16_S512x16_d0 : S2x512x16.ReducesTo [0] S512x16
  h_S_ : 0 < S_.numel
  reducesTo_S2x1x512_S1x512_d0 : S2x1x512.ReducesTo [0] S1x512
  shapeCasts_S1x512_S512 : S1x512.ShapeCasts S512
  shapeCasts_S512_S512x1 : S512.ShapeCasts S512x1
  bcast_S512x1_S512x16_0_1 : S512x1.BroadcastsInDim S512x16 (![0, 1] : Fin 2 → Fin S512x16.rank)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  shapeCasts_S512_S8x64 : S512.ShapeCasts S8x64
  bcast_S_S8x64 : S_.BroadcastsInDim S8x64 (![] : Fin 0 → Fin S8x64.rank)
  reducesTo_S8x64_S8_d1 : S8x64.ReducesTo [1] S8
  shapeCasts_S512x16_S8x64x16 : S512x16.ShapeCasts S8x64x16
  bcast_S8x64x16_S8x64x1x16_0_1_3 : S8x64x16.BroadcastsInDim S8x64x1x16 (![0, 1, 3] : Fin 3 → Fin S8x64x1x16.rank)
  bcast_S8x64x16_S8x1x64x16_0_2_3 : S8x64x16.BroadcastsInDim S8x1x64x16 (![0, 2, 3] : Fin 3 → Fin S8x1x64x16.rank)
  bcast_S8x64x1x16_S8x64x64x16_0_1_2_3 : S8x64x1x16.BroadcastsInDim S8x64x64x16 (![0, 1, 2, 3] : Fin 4 → Fin S8x64x64x16.rank)
  bcast_S8x1x64x16_S8x64x64x16_0_1_2_3 : S8x1x64x16.BroadcastsInDim S8x64x64x16 (![0, 1, 2, 3] : Fin 4 → Fin S8x64x64x16.rank)
  reducesTo_S8x64x64x16_S8x64x64_d3 : S8x64x64x16.ReducesTo [3] S8x64x64
  bcast_S_S8x64x64 : S_.BroadcastsInDim S8x64x64 (![] : Fin 0 → Fin S8x64x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S8x64x64_0_1_2 : S1x64x64.BroadcastsInDim S8x64x64 (![0, 1, 2] : Fin 3 → Fin S8x64x64.rank)
  reducesTo_S8x64x64_S8_d1_2 : S8x64x64.ReducesTo [1, 2] S8
  bcast_S_S8 : S_.BroadcastsInDim S8 (![] : Fin 0 → Fin S8.rank)
  reducesTo_S8_S_d0 : S8.ReducesTo [0] S_
  dot_S2000x512_S2000x16_S512x16_0_0_1_1_n_n_wf : DotDims.WF S2000x512 S2000x16 S512x16 [0] [0] [1] [1] [] []
  dot_S2000x512_S512x16_S2000x16_1_0_0_1_n_n_wf : DotDims.WF S2000x512 S512x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S2000000x16.size a
  hwx0_0 : ∀ i : grid0.Coords, EltTy.bits .f32 = 32 ∨ (Rect.block (s := S2000000x16) S2000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S2000000x1.size a
  hwx0_1 : ∀ i : grid0.Coords, EltTy.bits .i32 = 32 ∨ (Rect.block (s := S2000000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S2000000x1.size a
  hwx0_2 : ∀ i : grid0.Coords, EltTy.bits .i32 = 32 ∨ (Rect.block (s := S2000000x1) S2000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x16.size a ≤ S2x512x16.size a
  hwx0_3 : ∀ i : grid0.Coords, EltTy.bits .f32 = 32 ∨ (Rect.block (s := S2x512x16) S1x512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S2000000x16.size a
  hwx1_0 : ∀ i : grid1.Coords, EltTy.bits .f32 = 32 ∨ (Rect.block (s := S2000000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S2000000x1.size a
  hwx1_1 : ∀ i : grid1.Coords, EltTy.bits .i32 = 32 ∨ (Rect.block (s := S2000000x1) S2000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S2000000x1.size a
  hwx1_2 : ∀ i : grid1.Coords, EltTy.bits .i32 = 32 ∨ (Rect.block (s := S2000000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x16.size a ≤ S512x16.size a
  hwx1_3 : ∀ i : grid1.Coords, EltTy.bits .f32 = 32 ∨ (Rect.block (s := S512x16) S512x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512.size a ≤ S2x1x512.size a
  hwx1_4 : ∀ i : grid1.Coords, EltTy.bits .f32 = 32 ∨ (Rect.block (s := S2x1x512) S1x1x512.size (cc1_transform_4 i) (hinb1_4 i)).WholeWords (EltTy.packing .f32)

variable [Facts₀]

def dot_S2000x512_S2000x16_S512x16_0_0_1_1_n_n : DotDims S2000x512 S2000x16 S512x16 where
  lhsContracting := [0]
  rhsContracting := [0]
  lhsNonContracting := [1]
  rhsNonContracting := [1]
  lhsBatch := []
  rhsBatch := []
  wf := dot_S2000x512_S2000x16_S512x16_0_0_1_1_n_n_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2000000x16 : Shape := ⟨2, ![2000000, 16]⟩
abbrev S2000000 : Shape := ⟨1, ![2000000]⟩
abbrev S_ : Shape := ⟨0, ![]⟩
abbrev S2000000x1 : Shape := ⟨2, ![2000000, 1]⟩
abbrev S512 : Shape := ⟨1, ![512]⟩
abbrev S512x16 : Shape := ⟨2, ![512, 16]⟩
abbrev S512x1 : Shape := ⟨2, ![512, 1]⟩
abbrev S8x64 : Shape := ⟨2, ![8, 64]⟩
abbrev S8 : Shape := ⟨1, ![8]⟩
abbrev S8x64x16 : Shape := ⟨3, ![8, 64, 16]⟩
abbrev S8x64x1x16 : Shape := ⟨4, ![8, 64, 1, 16]⟩
abbrev S8x1x64x16 : Shape := ⟨4, ![8, 1, 64, 16]⟩
abbrev S8x64x64x16 : Shape := ⟨4, ![8, 64, 64, 16]⟩
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 101
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000, .i32⟩
  | .hbm, ⟨2, _⟩ => ⟨S2000000, .i32⟩
  | .hbm, ⟨3, _⟩ => ⟨S2000000x16, .f32⟩
  | .hbm, ⟨4, _⟩ => ⟨S_, .f32⟩
  | .hbm, ⟨5, _⟩ => ⟨S2000000, .f32⟩
  | .hbm, ⟨6, _⟩ => ⟨S2000000, .f32⟩
  | .hbm, ⟨7, _⟩ => ⟨S_, .f32⟩
  | .hbm, ⟨8, _⟩ => ⟨S2000000, .f32⟩
  | .hbm, ⟨9, _⟩ => ⟨S2000000, .f32⟩
  | .hbm, ⟨10, _⟩ => ⟨S2000000x1, .f32⟩
  | .hbm, ⟨11, _⟩ => ⟨S2000000x16, .f32⟩
  | .hbm, ⟨12, _⟩ => ⟨S2000000x16, .f32⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .f32⟩
  | .hbm, ⟨18, _⟩ => ⟨S2000000, .f32⟩
  | .hbm, ⟨19, _⟩ => ⟨S_, .f32⟩
  | .hbm, ⟨20, _⟩ => ⟨S512, .f32⟩
  | .hbm, ⟨21, _⟩ => ⟨S2000000x1, .i32⟩
  | .hbm, ⟨22, _⟩ => ⟨S512, .f32⟩
  | .hbm, ⟨23, _⟩ => ⟨S_, .f32⟩
  | .hbm, ⟨24, _⟩ => ⟨S512x16, .f32⟩
  | .hbm, ⟨25, _⟩ => ⟨S2000000x1, .i32⟩
  | .hbm, ⟨26, _⟩ => ⟨S512x16, .f32⟩
  | .hbm, ⟨27, _⟩ => ⟨S512x1, .f32⟩
  | .hbm, ⟨28, _⟩ => ⟨S512x16, .f32⟩
  | .hbm, ⟨29, _⟩ => ⟨S512x16, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S2000000x16, .f32⟩
  | .hbm, ⟨39, _⟩ => ⟨S2000000x16, .f32⟩
  | .hbm, ⟨40, _⟩ => ⟨S2000000x16, .f32⟩
  | .hbm, ⟨41, _⟩ => ⟨S_, .f32⟩
  | .hbm, ⟨42, _⟩ => ⟨S2000000, .f32⟩
  | .hbm, ⟨43, _⟩ => ⟨S_, .f32⟩
  | .hbm, ⟨44, _⟩ => ⟨S2000000, .f32⟩
  | .hbm, ⟨45, _⟩ => ⟨S2000000, .f32⟩
  | .hbm, ⟨46, _⟩ => ⟨S_, .f32⟩
  | .hbm, ⟨47, _⟩ => ⟨S2000000, .f32⟩
  | .hbm, ⟨48, _⟩ => ⟨S2000000, .f32⟩
  | .hbm, ⟨49, _⟩ => ⟨S2000000, .f32⟩
  | .hbm, ⟨50, _⟩ => ⟨S_, .f32⟩
  | .hbm, ⟨51, _⟩ => ⟨S512, .f32⟩
  | .hbm, ⟨52, _⟩ => ⟨S2000000x1, .i32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S8x64, .f32⟩
  | .hbm, ⟨59, _⟩ => ⟨S_, .f32⟩
  | .hbm, ⟨60, _⟩ => ⟨S8, .f32⟩
  | .hbm, ⟨61, _⟩ => ⟨S8x64x16, .f32⟩
  | .hbm, ⟨62, _⟩ => ⟨S8x64x1x16, .f32⟩
  | .hbm, ⟨63, _⟩ => ⟨S8x1x64x16, .f32⟩
  | .hbm, ⟨64, _⟩ => ⟨S8x64x64x16, .f32⟩
  | .hbm, ⟨65, _⟩ => ⟨S8x64x64x16, .f32⟩
  | .hbm, ⟨66, _⟩ => ⟨S8x64x64x16, .f32⟩
  | .hbm, ⟨67, _⟩ => ⟨S8x64x64x16, .f32⟩
  | .hbm, ⟨68, _⟩ => ⟨S_, .f32⟩
  | .hbm, ⟨69, _⟩ => ⟨S8x64x64, .f32⟩
  | .hbm, ⟨70, _⟩ => ⟨S_, .f32⟩
  | .hbm, ⟨71, _⟩ => ⟨S8x64x64, .f32⟩
  | .hbm, ⟨72, _⟩ => ⟨S8x64x64, .f32⟩
  | .hbm, ⟨73, _⟩ => ⟨S_, .f32⟩
  | .hbm, ⟨74, _⟩ => ⟨S8x64x64, .f32⟩
  | .hbm, ⟨75, _⟩ => ⟨S8x64x64, .f32⟩
  | .hbm, ⟨76, _⟩ => ⟨S8x64x64, .f32⟩
  | .hbm, ⟨77, _⟩ => ⟨S64x64, .i32⟩
  | .hbm, ⟨78, _⟩ => ⟨S64x64, .i32⟩
  | .hbm, ⟨79, _⟩ => ⟨S_, .i32⟩
  | .hbm, ⟨80, _⟩ => ⟨S64x64, .i32⟩
  | .hbm, ⟨81, _⟩ => ⟨S64x64, .i32⟩
  | .hbm, ⟨82, _⟩ => ⟨S64x64, .i1⟩
  | .hbm, ⟨83, _⟩ => ⟨S64x64, .f32⟩
  | .hbm, ⟨84, _⟩ => ⟨S_, .f32⟩
  | .hbm, ⟨85, _⟩ => ⟨S64x64, .f32⟩
  | .hbm, ⟨86, _⟩ => ⟨S64x64, .f32⟩
  | .hbm, ⟨87, _⟩ => ⟨S1x64x64, .f32⟩
  | .hbm, ⟨88, _⟩ => ⟨S8x64x64, .f32⟩
  | .hbm, ⟨89, _⟩ => ⟨S8x64x64, .f32⟩
  | .hbm, ⟨90, _⟩ => ⟨S_, .f32⟩
  | .hbm, ⟨91, _⟩ => ⟨S8, .f32⟩
  | .hbm, ⟨92, _⟩ => ⟨S_, .f32⟩
  | .hbm, ⟨93, _⟩ => ⟨S8, .f32⟩
  | .hbm, ⟨94, _⟩ => ⟨S8, .f32⟩
  | .hbm, ⟨95, _⟩ => ⟨S8, .f32⟩
  | .hbm, ⟨96, _⟩ => ⟨S_, .f32⟩
  | .hbm, ⟨97, _⟩ => ⟨S8, .f32⟩
  | .hbm, ⟨98, _⟩ => ⟨S8, .f32⟩
  | .hbm, ⟨99, _⟩ => ⟨S_, .f32⟩
  | .hbm, ⟨100, _⟩ => ⟨S_, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_call1_cst : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_call2_cst : Ref sig .tc := ⟨.hbm, 73, rfl⟩
abbrev main_call2_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_cst_17 : Ref sig .tc := ⟨.hbm, 99, rfl⟩
abbrev main_v70 : Ref sig .tc := ⟨.hbm, 100, rfl⟩

abbrev nD : Nat := 1
abbrev τ : Topo := Topo.v7x

variable {F : FTy → Type} [FloatOps F]

class Facts₀ : Prop where
  reducesTo_S2000000x16_S2000000_d1 : S2000000x16.ReducesTo [1] S2000000
  h_S_ : 0 < S_.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x16_0_1 : S2000000x1.BroadcastsInDim S2000000x16 (![0, 1] : Fin 2 → Fin S2000000x16.rank)
  bcast_S_S512 : S_.BroadcastsInDim S512 (![] : Fin 0 → Fin S512.rank)
  bcast_S_S512x16 : S_.BroadcastsInDim S512x16 (![] : Fin 0 → Fin S512x16.rank)
  bcast_S512_S512x1_0 : S512.BroadcastsInDim S512x1 (![0] : Fin 1 → Fin S512x1.rank)
  bcast_S512x1_S512x16_0_1 : S512x1.BroadcastsInDim S512x16 (![0, 1] : Fin 2 → Fin S512x16.rank)
  shapeCasts_S512_S8x64 : S512.ShapeCasts S8x64
  reducesTo_S8x64_S8_d1 : S8x64.ReducesTo [1] S8
  shapeCasts_S512x16_S8x64x16 : S512x16.ShapeCasts S8x64x16
  bcast_S8x64x16_S8x64x1x16_0_1_3 : S8x64x16.BroadcastsInDim S8x64x1x16 (![0, 1, 3] : Fin 3 → Fin S8x64x1x16.rank)
  bcast_S8x64x16_S8x1x64x16_0_2_3 : S8x64x16.BroadcastsInDim S8x1x64x16 (![0, 2, 3] : Fin 3 → Fin S8x1x64x16.rank)
  bcast_S8x64x1x16_S8x64x64x16_0_1_2_3 : S8x64x1x16.BroadcastsInDim S8x64x64x16 (![0, 1, 2, 3] : Fin 4 → Fin S8x64x64x16.rank)
  bcast_S8x1x64x16_S8x64x64x16_0_1_2_3 : S8x1x64x16.BroadcastsInDim S8x64x64x16 (![0, 1, 2, 3] : Fin 4 → Fin S8x64x64x16.rank)
  reducesTo_S8x64x64x16_S8x64x64_d3 : S8x64x64x16.ReducesTo [3] S8x64x64
  bcast_S_S8x64x64 : S_.BroadcastsInDim S8x64x64 (![] : Fin 0 → Fin S8x64x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S8x64x64_0_1_2 : S1x64x64.BroadcastsInDim S8x64x64 (![0, 1, 2] : Fin 3 → Fin S8x64x64.rank)
  reducesTo_S8x64x64_S8_d1_2 : S8x64x64.ReducesTo [1, 2] S8
  bcast_S_S8 : S_.BroadcastsInDim S8 (![] : Fin 0 → Fin S8.rank)
  reducesTo_S8_S_d0 : S8.ReducesTo [0] S_
  scatter_S512_S2000000x1_S2000000_n_0_0_1_wf : ScatterDims.WF S512 S2000000x1 S2000000 [] [0] [0] 1
  scatter_S512x16_S2000000x1_S2000000x16_1_0_0_1_wf : ScatterDims.WF S512x16 S2000000x1 S2000000x16 [1] [0] [0] 1
  gather_S512x16_S2000000x1_S2000000x16_1_0_n_n_0_1_116_wf : GatherDims.WF S512x16 S2000000x1 S2000000x16 [1] [0] [] [0] [] 1 ![1, 16]

variable [Facts₀]

def scatter_S512_S2000000x1_S2000000_n_0_0_1 : ScatterDims S512 S2000000x1 S2000000 where
  updateWindowDims := []
  insertedWindowDims := [0]
  scatterDimsToOperandDims := [0]
  indexVectorDim := 1
  wf := scatter_S512_S2000000x1_S2000000_n_0_0_1_wf
def scatter_S512x16_S2000000x1_S2000000x16_1_0_0_1 : ScatterDims S512x16 S2000000x1 S2000000x16 where
  updateWindowDims := [1]
  insertedWindowDims := [0]
  scatterDimsToOperandDims := [0]
  indexVectorDim := 1
  wf := scatter_S512x16_S2000000x1_S2000000x16_1_0_0_1_wf
def gather_S512x16_S2000000x1_S2000000x16_1_0_n_n_0_1_116 : GatherDims S512x16 S2000000x1 S2000000x16 where
  offsetDims := [1]
  collapsedSliceDims := [0]
  operandBatchingDims := []
  startIndicesBatchingDims := []
  startIndexMap := [0]
  indexVectorDim := 1
  sliceSizes := ![1, 16]
  wf := gather_S512x16_S2000000x1_S2000000x16_1_0_n_n_0_1_116_wf

class Facts : Prop extends Facts₀ where

variable [Facts]
-- ==== Proof.Spec.lean ====
/-
  The mathematics both programs compute, stated once over the extended reals.

  A point is a row of sixteen reals with a 32-bit segment word. Its row is scaled to unit length (a small guard added to the
  length); a point belongs to segment `s` when its word is the word of `s`, and `hot` is the indicator of that. Per segment:
  the number of its points (`cnt`), the sum of their unit rows (`msum`), and the sum of their squared hinge distances from a
  table of centre rows (`pull`). The grid of the kernel walks the points in two halves of five hundred blocks of two thousand;
  `half` is one half's share of a sum over all points, and `tot_eq_halves` says the two shares add up to the whole.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The indicator that the segment word `w` names segment `s`. -/
def hot (w : BitVec 32) (s : Fin 512) : EReal := if BitVec.ofNat 32 s.val = w then 1 else 0

/-- A row divided by its Euclidean length plus the guard `f32(1e-8)`. -/
def unitRow (row : Fin 16 → EReal) (d : Fin 16) : EReal :=
  Ideal.div (row d) (Ideal.sqrt (∑ k : Fin 16, row k * row k) + Ideal.ofBits .f32 0x322BCC77#32)

/-- The squared hinge `max(‖c - u‖₁ - 1/2, 0)²` of a unit row `u` against a centre row `c`. -/
def hinge (u c : Fin 16 → EReal) : EReal :=
  max ((∑ d : Fin 16, max (c d - u d) (-(c d - u d))) - Ideal.ofBits .f32 0x3F000000#32) (Ideal.ofBits .f32 0x00000000#32)
    * max ((∑ d : Fin 16, max (c d - u d) (-(c d - u d))) - Ideal.ofBits .f32 0x3F000000#32) (Ideal.ofBits .f32 0x00000000#32)

/-- The centre row a segment word selects from a table by its indicator: the row of its segment, or zero if it names none. -/
def mix (w : BitVec 32) (M : Fin 512 → Fin 16 → EReal) (d : Fin 16) : EReal := ∑ k : Fin 512, hot w k * M k d

/-- A sum over all two million points. -/
def tot (g : ℕ → EReal) : EReal := ∑ n ∈ Finset.range 2000000, g n

/-- One half's share: five hundred blocks of two thousand points, from point `1000000 * p`. -/
def half (g : ℕ → EReal) (p : ℕ) : EReal :=
  ∑ j ∈ Finset.range 500, ∑ r : Fin 2000, g ((500 * p + j) * 2000 + r.val)

/-- The number of points of segment `s`. -/
def cnt (seg : ℕ → BitVec 32) (s : Fin 512) : EReal := tot fun n => hot (seg n) s

/-- The sum of the unit rows of segment `s`, coordinate `d`. -/
def msum (rows : ℕ → Fin 16 → EReal) (seg : ℕ → BitVec 32) (s : Fin 512) (d : Fin 16) : EReal :=
  tot fun n => hot (seg n) s * unitRow (rows n) d

/-- The centre of segment `s`: the sum of its unit rows over their number. -/
def mu (rows : ℕ → Fin 16 → EReal) (seg : ℕ → BitVec 32) (s : Fin 512) (d : Fin 16) : EReal :=
  Ideal.div (msum rows seg s d) (cnt seg s)

/-- The pull term of segment `s` against a table of centres. -/
def pull (rows : ℕ → Fin 16 → EReal) (seg : ℕ → BitVec 32) (M : Fin 512 → Fin 16 → EReal) (s : Fin 512) : EReal :=
  tot fun n => hot (seg n) s * hinge (unitRow (rows n)) (mix (seg n) M)

/-! ## Reading the argument arrays by point number -/

/-- Row `n` of a `[2000000, 16]` array (zero past the array). -/
def rowsOf (X : (⟨2, ![2000000, 16]⟩ : Shape).Idx → EReal) (n : ℕ) (k : Fin 16) : EReal :=
  if h : n < 2000000 then X (ix2 ⟨n, h⟩ k) else 0

/-- Entry `n` of a `[2000000]` array of words (zero past the array). -/
def wordsOf (w : (⟨1, ![2000000]⟩ : Shape).Idx → BitVec 32) (n : ℕ) : BitVec 32 :=
  if h : n < 2000000 then w (ix1 ⟨n, h⟩) else 0#32

/-- The segment word of point `n`: sixty-four times its subbatch word plus its label word. -/
def segOf (lab sub : (⟨1, ![2000000]⟩ : Shape).Idx → BitVec 32) (n : ℕ) : BitVec 32 :=
  wordsOf sub n * 64#32 + wordsOf lab n

/-- The segment word of point `n` from the two word arrays reshaped to `[2000000, 1]` (what the kernel's windows stage). -/
def segOf2 (lab2 sub2 : (⟨2, ![2000000, 1]⟩ : Shape).Idx → BitVec 32) (n : ℕ) : BitVec 32 :=
  if h : n < 2000000 then sub2 (ix2 ⟨n, h⟩ 0) * 64#32 + lab2 (ix2 ⟨n, h⟩ 0) else 0#32

/-- A `[512, 16]` array as a table of centre rows. -/
def tableOf (M : (⟨2, ![512, 16]⟩ : Shape).Idx → EReal) (s : Fin 512) (d : Fin 16) : EReal := M (ix2 s d)

/-! ## Reading a block of two thousand points -/

/-- The segment word of row `r` of a block: sixty-four times its subbatch word plus its label word. -/
def blkSeg (x1 x2 : (⟨2, ![2000, 1]⟩ : Shape).Idx → BitVec 32) (r : Fin 2000) : BitVec 32 :=
  x2 (ix2 r 0) * 64#32 + x1 (ix2 r 0)

/-- Row `r` of a block of the point cloud. -/
def blkRow (x0 : (⟨2, ![2000, 16]⟩ : Shape).Idx → EReal) (r : Fin 2000) (k : Fin 16) : EReal := x0 (ix2 r k)

/-! ## The laws that join the two arrangements -/

/-- Consecutive blocks of equal length tile an initial stretch of the indices: the block number times the block length
    plus the place in the block runs once through all of them. -/
private theorem sum_blocks (g : ℕ → EReal) (b : ℕ) (a : ℕ) :
    ∑ j ∈ Finset.range a, ∑ r ∈ Finset.range b, g (j * b + r) = ∑ n ∈ Finset.range (a * b), g n := by
  induction a with
  | zero => simp
  | succ a ih =>
    rw [Finset.sum_range_succ, ih, Nat.succ_mul, Finset.sum_range_add]

/-- One half's share is the sum over its million consecutive points. -/
private theorem half_eq (g : ℕ → EReal) (p : ℕ) :
    half g p = ∑ n ∈ Finset.range 1000000, g (1000000 * p + n) := by
  unfold half
  have h1 : ∀ j ∈ Finset.range 500, (∑ r : Fin 2000, g ((500 * p + j) * 2000 + r.val))
      = ∑ r ∈ Finset.range 2000, (fun n => g (1000000 * p + n)) (j * 2000 + r) := by
    intro j _
    rw [Fin.sum_univ_eq_sum_range (fun r => g ((500 * p + j) * 2000 + r)) 2000]
    apply Finset.sum_congr rfl
    intro r _
    show g _ = g _
    congr 1
    ring
  rw [Finset.sum_congr rfl h1, sum_blocks (fun n => g (1000000 * p + n)) 2000 500]

/-- The two halves' shares of a sum over the points add up to the sum. -/
theorem tot_eq_halves (g : ℕ → EReal) : tot g = half g 0 + half g 1 := by
  -- each half is a run of a million consecutive points; the two runs split the range at its middle
  rw [half_eq, half_eq]
  unfold tot
  rw [show (2000000 : ℕ) = 1000000 + 1000000 from rfl, Finset.sum_range_add]
  simp only [Nat.mul_zero, Nat.mul_one, Nat.zero_add]

/-- A word is the word of a number below 512 exactly when its signed reading is that number: such a word has its top
    bit clear, so its signed and unsigned readings agree. -/
private theorem ofNat_eq_iff_toInt (w : BitVec 32) (s : Fin 512) :
    BitVec.ofNat 32 s.val = w ↔ w.toInt = (s.val : Int) := by
  have hs := s.isLt
  have hw := w.isLt
  constructor
  · intro h
    subst h
    rw [BitVec.toInt_eq_toNat_cond, BitVec.toNat_ofNat]
    have e : s.val % 2 ^ 32 = s.val := Nat.mod_eq_of_lt (by omega)
    rw [e]
    split <;> omega
  · intro h
    apply BitVec.eq_of_toNat_eq
    rw [BitVec.toNat_ofNat]
    rw [BitVec.toInt_eq_toNat_cond] at h
    split at h <;> omega

/-- A sum weighted by a segment's indicator is the sum over that segment's points: over the points whose word, read as a
    signed integer, is `s`. -/
theorem tot_hot_eq_filter (seg : ℕ → BitVec 32) (f : ℕ → EReal) (s : Fin 512) :
    tot (fun n => hot (seg n) s * f n)
      = ∑ e ∈ (Finset.univ : Finset (Fin 2000000)).filter (fun e => (seg e.val).toInt = (s.val : Int)), f e.val := by
  -- index the points by a finite type, write the restricted sum as a sum of guarded terms, and compare term by term
  unfold tot
  rw [← Fin.sum_univ_eq_sum_range (fun n => hot (seg n) s * f n) 2000000, Finset.sum_filter]
  apply Finset.sum_congr rfl
  intro e _
  unfold hot
  by_cases hh : (seg e.val).toInt = (s.val : Int)
  · rw [if_pos ((ofNat_eq_iff_toInt _ _).mpr hh), if_pos hh, one_mul]
  · rw [if_neg (fun h' => hh ((ofNat_eq_iff_toInt _ _).mp h')), if_neg hh, zero_mul]

/-- The indicator selects the row of the word's segment: for a word that names segment `s`, `mix` is row `s` of the table. -/
theorem mix_of_hot (w : BitVec 32) (M : Fin 512 → Fin 16 → EReal) (s : Fin 512) (h : BitVec.ofNat 32 s.val = w) (d : Fin 16) :
    mix w M d = M s d := by
  subst h
  unfold mix
  -- two numbers below 512 with the same word are equal, so the indicator is that of being the segment itself
  have key : ∀ k : Fin 512, hot (BitVec.ofNat 32 s.val) k * M k d = if k = s then M k d else 0 := by
    intro k
    unfold hot
    by_cases hk : k = s
    · subst hk
      rw [if_pos rfl, if_pos rfl, one_mul]
    · have hne : ¬ (BitVec.ofNat 32 k.val = BitVec.ofNat 32 s.val) := by
        intro he
        apply hk
        have hv := congrArg BitVec.toNat he
        simp only [BitVec.toNat_ofNat] at hv
        apply Fin.ext
        have := k.isLt
        have := s.isLt
        omega
      rw [if_neg hne, if_neg hk, zero_mul]
  rw [Finset.sum_congr rfl (fun k _ => key k), Finset.sum_ite_eq' Finset.univ s (fun k => M k d)]
  rw [if_pos (Finset.mem_univ s)]

/-- `hot` is one exactly at the words whose signed reading is the segment's number. -/
theorem hot_eq_one_iff (w : BitVec 32) (s : Fin 512) : BitVec.ofNat 32 s.val = w ↔ w.toInt = (s.val : Int) :=
  ofNat_eq_iff_toInt w s

/-- Where the indicator vanishes the weighted term vanishes, whatever the other factor. -/
theorem hot_mul_congr (w : BitVec 32) (s : Fin 512) (a b : EReal) (h : BitVec.ofNat 32 s.val = w → a = b) :
    hot w s * a = hot w s * b := by
  unfold hot
  split_ifs with hh
  · rw [h hh]
  · rw [zero_mul, zero_mul]

end Cert.Spec

end
-- ==== Proof.KBody0.lean ====
/-
  What one grid point of the first kernel leaves in its two accumulators, entry by entry.

  The body loads a block of two thousand points, scales each row to unit length, forms the one-hot matrix of the points'
  segment words against the 512 segments, and adds to the first accumulator the product (one-hot)ᵀ · (unit rows) and to the
  second the one-hot matrix's column sums. At the first point of a half the accumulators are first set to zero, so what
  the point leaves is the block's contribution alone; at every other point it is the previous contents plus the
  contribution. Entry (s, d) of the first contribution is the sum over the block's rows of `hot` times the unit row's
  coordinate d; entry s of the second is the sum of `hot`: the number of the block's points in segment s.
-/
import proofs.«419743_j24764781428790_1_alg».proof.Proof.Gen.KernelIdeal.Frame
import proofs.«419743_j24764781428790_1_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Body0

open Cert.KernelIdeal Cert.KernelIdeal.Gen Cert.Spec
open Idealize.ShloMosaic Idealize.ShloMosaic.TcCoe Idealize.ShloMosaic.ValueIdx Idealize.SL.Sem

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- After any point but a half's first, the first accumulator's one covering store holds the update of what was there. -/
theorem out0_B_3_eq (c : Dev nD) (i : grid0.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x512x16 .f32) (harg5 : arg5.IsWhole) (arg6 : Memref sig .tc .vmem S1x1x512 .f32) (harg6 : arg6.IsWhole) (hc0 : ¬cond0_0 i)
    (x0 : Vec F S2000x16 .f32) (x1 : Vec F S2000x1 .i32) (x2 : Vec F S2000x1 .i32)
    (xo3 : Vec F S1x512x16 .f32) (xo4 : Vec F S1x1x512 .f32) :
    out0_B_3 c i arg2 harg2 arg3 harg3 arg4 harg4 arg5 harg5 arg6 harg6 hc0 x0 x1 x2 xo3 xo4 = k0_pay6 x0 x1 x2 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero hz3]
  simp only [View.readAt_eq_ld, harg2.read_unread, harg3.read_unread, harg4.read_unread, harg5.read_unread,
    View.ld_unit_zero (S := S2000x16) hz2, View.ld_unit_zero (S := S2000x1) hz2, View.ld_unit_zero (S := S1x512x16) hz3]

/-- After a half's first point, the first accumulator holds the update of the zero block the reset stored. -/
theorem out0_A_3_eq (c : Dev nD) (i : grid0.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x512x16 .f32) (harg5 : arg5.IsWhole) (arg6 : Memref sig .tc .vmem S1x1x512 .f32) (harg6 : arg6.IsWhole) (hc0 : cond0_0 i)
    (x0 : Vec F S2000x16 .f32) (x1 : Vec F S2000x1 .i32) (x2 : Vec F S2000x1 .i32) :
    out0_A_3 c i arg2 harg2 arg3 harg3 arg4 harg4 arg5 harg5 arg6 harg6 hc0 x0 x1 x2 = k0_pay6 x0 x1 x2 (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x512x16) hz3, View.readCov_unit_zero (S := S1x512x16) _ hz3]
  simp only [View.readAt_eq_ld, harg2.read_unread, harg3.read_unread, harg4.read_unread,
    View.ld_unit_zero (S := S2000x16) hz2, View.ld_unit_zero (S := S2000x1) hz2, View.ld_unit_zero (S := S1x512x16) hz3]

/-- After any point but a half's first, the second accumulator's one covering store holds the update of what was there. -/
theorem out0_B_4_eq (c : Dev nD) (i : grid0.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x512x16 .f32) (harg5 : arg5.IsWhole) (arg6 : Memref sig .tc .vmem S1x1x512 .f32) (harg6 : arg6.IsWhole) (hc0 : ¬cond0_0 i)
    (x0 : Vec F S2000x16 .f32) (x1 : Vec F S2000x1 .i32) (x2 : Vec F S2000x1 .i32)
    (xo3 : Vec F S1x512x16 .f32) (xo4 : Vec F S1x1x512 .f32) :
    out0_B_4 c i arg2 harg2 arg3 harg3 arg4 harg4 arg5 harg5 arg6 harg6 hc0 x0 x1 x2 xo3 xo4 = k0_pay1 (k0_pay5 x1 x2) xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz3]
  simp only [View.readAt_eq_ld, harg2.read_unread, harg3.read_unread, harg4.read_unread, harg6.read_unread,
    View.ld_unit_zero (S := S2000x16) hz2, View.ld_unit_zero (S := S2000x1) hz2, View.ld_unit_zero (S := S1x1x512) hz3]

/-- After a half's first point, the second accumulator holds the update of the zero block the reset stored. -/
theorem out0_A_4_eq (c : Dev nD) (i : grid0.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x512x16 .f32) (harg5 : arg5.IsWhole) (arg6 : Memref sig .tc .vmem S1x1x512 .f32) (harg6 : arg6.IsWhole) (hc0 : cond0_0 i)
    (x0 : Vec F S2000x16 .f32) (x1 : Vec F S2000x1 .i32) (x2 : Vec F S2000x1 .i32) :
    out0_A_4 c i arg2 harg2 arg3 harg3 arg4 harg4 arg5 harg5 arg6 harg6 hc0 x0 x1 x2 = k0_pay1 (k0_pay5 x1 x2) (k0_pay3 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x1x512) hz3, View.readCov_unit_zero (S := S1x1x512) _ hz3]
  simp only [View.readAt_eq_ld, harg2.read_unread, harg3.read_unread, harg4.read_unread,
    View.ld_unit_zero (S := S2000x16) hz2, View.ld_unit_zero (S := S2000x1) hz2, View.ld_unit_zero (S := S1x1x512) hz3]
end Pieces

section AtIdeal

/-! ## The payloads read at an index, over the extended reals -/

/-- A one-bit equality test of a segment's number against a word, widened to a word and read as a signed number, is the
    indicator that the word names the segment: the bit is 1 exactly when the two words agree. -/
theorem hot_word (w : BitVec 32) (s : Fin 512) :
    FloatOps.sitofp (F := Ideal) .f32 ((IntOp.cmpi .eq (BitVec.ofNat 32 s.val) w).setWidth 32) = hot w s := by
  unfold hot
  show (((((IntOp.cmpi .eq (BitVec.ofNat 32 s.val) w).setWidth 32).toInt : ℤ) : ℝ) : EReal) = _
  by_cases h : BitVec.ofNat 32 s.val = w
  · rw [if_pos h, h]
    have e : ((IntOp.cmpi .eq w w).setWidth 32).toInt = 1 := by
      have : IntOp.cmpi .eq w w = 1#1 := by simp [IntOp.cmpi]
      rw [this]; decide
    rw [e]; norm_num
  · rw [if_neg h]
    have e : ((IntOp.cmpi .eq (BitVec.ofNat 32 s.val) w).setWidth 32).toInt = 0 := by
      have : IntOp.cmpi .eq (BitVec.ofNat 32 s.val) w = 0#1 := by
        have hb : (BitVec.ofNat 32 s.val == w) = false := beq_eq_false_iff_ne.mpr h
        simp [IntOp.cmpi, hb]
      rw [this]; decide
    rw [e]; norm_num

/-- Entry (r, s) of the one-hot matrix: the indicator that row r's segment word names segment s. The word is
    sixty-four times the subbatch word plus the label word; the column's number comes from the iota along axis 1. -/
theorem pay4_apply (x1 x2 : Vec Ideal S2000x1 .i32) (r : Fin 2000) (s : Fin 512) :
    k0_pay4 (F := Ideal) x1 x2 (ix2 r s) = hot (blkSeg x1 x2 r) s := by
  unfold k0_pay4
  refine Eq.trans ?_ (hot_word (blkSeg x1 x2 r) s)
  have hi : iota .tc S2000x512 32 [1] iota_S2000x512_d1_w32 (ix2 r s) = BitVec.ofNat 32 s.val :=
    iota_single_apply .tc S2000x512 32 1 iota_S2000x512_d1_w32 (ix2 r s)
  have hb : ∀ v : IVec S2000x1 32, broadcastTo S2000x512 v broadcasts_S2000x1_S2000x512 (ix2 r s) = v (ix2 r 0) := fun v =>
    broadcastTo_apply v _ (ix2 r s) (ix2 r 0) (fun a => match a with | ⟨0, _⟩ => rfl | ⟨1, _⟩ => rfl)
  dsimp only [sitofp, extui, cmpi]
  rw [hi, hb]
  dsimp only [addi, muli, broadcast]
  rw [shapeCast_self, shapeCast_self]
  rfl

/-- The block's rows scaled to unit length: each row over its Euclidean length plus the guard. -/
def unitBlk {F : FTy → Type} [FloatOps F] (x0 : Vec F S2000x16 .f32) : FVec F S2000x16 .f32 :=
  divf x0 (broadcastTo S2000x16 (addf (sqrt (shapeCast S2000x1 (multiReduction .add [1] S2000 (mulf x0 x0) 0x00000000#32 reduces_S2000x16_S2000 (.inl rfl) rfl) shapeCasts_S2000_S2000x1)) (broadcast S2000x1 (Scalar.ofBits .f32 0x322BCC77#32))) broadcasts_S2000x1_S2000x16)

/-- The first accumulator's update is the old contents plus the product of the transposed one-hot matrix with the unit rows. -/
theorem pay6_eq {F : FTy → Type} [FloatOps F] (x0 : Vec F S2000x16 .f32) (x1 x2 : Vec F S2000x1 .i32) (v29 : Vec F S1x512x16 .f32) :
    k0_pay6 x0 x1 x2 v29 = shapeCast S1x512x16 (addf (shapeCast S512x16 v29 shapeCasts_S1x512x16_S512x16)
      (matmul dot_S2000x512_S2000x16_S512x16_0_0_1_1_n_n none (truncf .bf16 (k0_pay4 x1 x2) bitsLt_bf16_f32) (truncf .bf16 (unitBlk x0) bitsLt_bf16_f32) (constant S512x16 .f32 0x00000000#32))) shapeCasts_S512x16_S1x512x16 := rfl

/-- Entry (r, k) of the unit rows: coordinate k of row r over the root of the row's sum of squares plus the guard. -/
theorem unitBlk_apply (x0 : Vec Ideal S2000x16 .f32) (r : Fin 2000) (k : Fin 16) :
    unitBlk (F := Ideal) x0 (ix2 r k) = unitRow (blkRow x0 r) k := by
  unfold unitBlk unitRow blkRow
  show Ideal.div (x0 (ix2 r k)) _ = Ideal.div (x0 (ix2 r k)) _
  refine congrArg (Ideal.div (x0 (ix2 r k))) ?_
  refine (broadcastTo_apply (s := S2000x1) (t := S2000x16) _ broadcasts_S2000x1_S2000x16 (ix2 r k) (ix2 r (0 : Fin 1)) (fun a => match a with | ⟨0, _⟩ => rfl | ⟨1, _⟩ => rfl)).trans ?_
  refine congrArg (fun t => Ideal.sqrt t + Ideal.ofBits .f32 0x322BCC77#32) ?_
  refine (shapeCast_apply (s := S2000) (t := S2000x1) _ shapeCasts_S2000_S2000x1 (ix2 r (0 : Fin 1)) (ix1 r) (by
    rw [Shape.rowMajor_val_one, Shape.rowMajor_val_two]
    show r.val = r.val * 1 + 0
    omega)).trans ?_
  refine (Ideal.multiReduction_add_single (mulf x0 x0) 0x00000000#32 reduces_S2000x16_S2000 (.inl rfl) rfl (ix1 r)).trans ?_
  refine Finset.sum_congr rfl fun j _ => ?_
  have e : reduces_S2000x16_S2000.lift (ix1 r) j = ix2 r j :=
    funext fun a => Fin.ext (match a with | ⟨0, _⟩ => rfl | ⟨1, _⟩ => rfl)
  rw [e]
  rfl

/-! The product contracts axis 0 of both operands: at output entry (s, d) and contraction position q, the left operand
    is read at (q, s) and the right at (q, d). One fact per operand axis. -/

theorem lhs_0 (i : S512x16.Idx) (q : dot_S2000x512_S2000x16_S512x16_0_0_1_1_n_n.contr.Idx) :
    (dot_S2000x512_S2000x16_S512x16_0_0_1_1_n_n.lhsIdx i q 0).val = (q ⟨0, by decide⟩).val :=
  dot_S2000x512_S2000x16_S512x16_0_0_1_1_n_n.lhsIdx_val_of_single rfl i q
theorem lhs_1 (i : S512x16.Idx) (q : dot_S2000x512_S2000x16_S512x16_0_0_1_1_n_n.contr.Idx) :
    (dot_S2000x512_S2000x16_S512x16_0_0_1_1_n_n.lhsIdx i q 1).val = (i 0).val := by
  unfold DotDims.lhsIdx
  rw [dif_neg (show ¬(1 : Fin S2000x512.rank) ∈ dot_S2000x512_S2000x16_S512x16_0_0_1_1_n_n.lhsBatch by decide), dif_pos (show (1 : Fin S2000x512.rank) ∈ dot_S2000x512_S2000x16_S512x16_0_0_1_1_n_n.lhsNonContracting by decide)]
  rfl
theorem rhs_0 (i : S512x16.Idx) (q : dot_S2000x512_S2000x16_S512x16_0_0_1_1_n_n.contr.Idx) :
    (dot_S2000x512_S2000x16_S512x16_0_0_1_1_n_n.rhsIdx i q 0).val = (q ⟨0, by decide⟩).val :=
  dot_S2000x512_S2000x16_S512x16_0_0_1_1_n_n.rhsIdx_val_of_single rfl i q
theorem rhs_1 (i : S512x16.Idx) (q : dot_S2000x512_S2000x16_S512x16_0_0_1_1_n_n.contr.Idx) :
    (dot_S2000x512_S2000x16_S512x16_0_0_1_1_n_n.rhsIdx i q 1).val = (i 1).val := by
  unfold DotDims.rhsIdx
  rw [dif_neg (show ¬(1 : Fin S2000x16.rank) ∈ dot_S2000x512_S2000x16_S512x16_0_0_1_1_n_n.rhsBatch by decide), dif_pos (show (1 : Fin S2000x16.rank) ∈ dot_S2000x512_S2000x16_S512x16_0_0_1_1_n_n.rhsNonContracting by decide)]
  rfl

/-- Entry (s, d) of the product into the zero block: the sum over the block's rows of the left operand at (r, s) times the
    right at (r, d); the narrowing of the operands' format changes nothing over the extended reals. -/
theorem mm_apply (A : FVec Ideal S2000x512 .f32) (B : FVec Ideal S2000x16 .f32) (s : Fin 512) (d : Fin 16) :
    matmul (F := Ideal) dot_S2000x512_S2000x16_S512x16_0_0_1_1_n_n none (truncf .bf16 A bitsLt_bf16_f32) (truncf .bf16 B bitsLt_bf16_f32) (constant (F := Ideal) S512x16 .f32 0x00000000#32) (ix2 s d)
      = ∑ r : Fin 2000, A (ix2 r s) * B (ix2 r d) := by
  simp only [matmul]
  rw [Ideal.matmul_constant_zero_apply, ← Equiv.sum_comp (contrEquiv1 dot_S2000x512_S2000x16_S512x16_0_0_1_1_n_n 2000 rfl rfl).symm]
  refine Finset.sum_congr rfl fun k _ => ?_
  have hk := contrEquiv1_symm_val dot_S2000x512_S2000x16_S512x16_0_0_1_1_n_n 2000 rfl rfl k
  have el : dot_S2000x512_S2000x16_S512x16_0_0_1_1_n_n.lhsIdx (ix2 s d) ((contrEquiv1 dot_S2000x512_S2000x16_S512x16_0_0_1_1_n_n 2000 rfl rfl).symm k) = ix2 k s := funext fun a => Fin.ext (by
    match a with
    | ⟨0, _⟩ => exact (lhs_0 _ _).trans hk
    | ⟨1, _⟩ => exact lhs_1 _ _)
  have er : dot_S2000x512_S2000x16_S512x16_0_0_1_1_n_n.rhsIdx (ix2 s d) ((contrEquiv1 dot_S2000x512_S2000x16_S512x16_0_0_1_1_n_n 2000 rfl rfl).symm k) = ix2 k d := funext fun a => Fin.ext (by
    match a with
    | ⟨0, _⟩ => exact (rhs_0 _ _).trans hk
    | ⟨1, _⟩ => exact rhs_1 _ _)
  rw [el, er]
  rfl

/-- Entry (s, d) of the first accumulator's update: what was there plus the sum over the block's rows of the indicator
    times the unit row's coordinate. -/
theorem pay6_apply (x0 : Vec Ideal S2000x16 .f32) (x1 x2 : Vec Ideal S2000x1 .i32) (v29 : Vec Ideal S1x512x16 .f32)
    (s : Fin 512) (d : Fin 16) :
    k0_pay6 (F := Ideal) x0 x1 x2 v29 (ix3 0 s d)
      = v29 (ix3 0 s d) + ∑ r : Fin 2000, hot (blkSeg x1 x2 r) s * unitRow (blkRow x0 r) d := by
  refine (congrFun (pay6_eq (F := Ideal) x0 x1 x2 v29) (ix3 0 s d)).trans ?_
  refine (shapeCast_ab_1ab_apply _ shapeCasts_S512x16_S1x512x16 0 s d).trans ?_
  refine congrArg₂ (· + ·) (shapeCast_1ab_ab_apply v29 shapeCasts_S1x512x16_S512x16 s d) ?_
  refine (mm_apply (k0_pay4 (F := Ideal) x1 x2) (unitBlk (F := Ideal) x0) s d).trans ?_
  refine Finset.sum_congr rfl fun r _ => ?_
  rw [pay4_apply, unitBlk_apply]

/-- The zero block the reset stores in the first accumulator reads zero everywhere. -/
theorem pay2_apply (s : Fin 512) (d : Fin 16) : k0_pay2 (F := Ideal) (ix3 0 s d) = 0 := by
  unfold k0_pay2
  refine (shapeCast_ab_1ab_apply _ shapeCasts_S512x16_S1x512x16 0 s d).trans ?_
  exact Ideal.ofBits_zero_f32

/-- The zero block the reset stores in the second accumulator reads zero everywhere. -/
theorem pay3_apply (s : Fin 512) : k0_pay3 (F := Ideal) (ix3 0 0 s) = 0 := by
  unfold k0_pay3
  refine (shapeCast_ab_1ab_apply _ shapeCasts_S1x512_S1x1x512 0 0 s).trans ?_
  exact Ideal.ofBits_zero_f32

/-- Entry s of the one-hot matrix's column sums: the number of the block's rows whose word names segment s. -/
theorem pay5_apply (x1 x2 : Vec Ideal S2000x1 .i32) (s : Fin 512) :
    k0_pay5 (F := Ideal) x1 x2 (ix2 0 s) = ∑ r : Fin 2000, hot (blkSeg x1 x2 r) s := by
  unfold k0_pay5
  refine (shapeCast_a_1a_apply _ shapeCasts_S512_S1x512 0 s).trans ?_
  refine (Ideal.multiReduction_add_single (k0_pay4 (F := Ideal) x1 x2) 0x00000000#32 reduces_S2000x512_S512 (.inl rfl) rfl (ix1 s)).trans ?_
  refine Finset.sum_congr rfl fun r _ => ?_
  have e : reduces_S2000x512_S512.lift (ix1 s) r = ix2 r s :=
    funext fun a => Fin.ext (match a with | ⟨0, _⟩ => rfl | ⟨1, _⟩ => rfl)
  rw [e]
  exact pay4_apply x1 x2 r s

/-- Entry s of the second accumulator's update: what was there plus the column sum. -/
theorem pay1_apply (v28 : FVec Ideal S1x512 .f32) (v35 : Vec Ideal S1x1x512 .f32) (s : Fin 512) :
    k0_pay1 (F := Ideal) v28 v35 (ix3 0 0 s) = v35 (ix3 0 0 s) + v28 (ix2 0 s) := by
  unfold k0_pay1
  refine (shapeCast_ab_1ab_apply _ shapeCasts_S1x512_S1x1x512 0 0 s).trans ?_
  exact congrArg (· + v28 (ix2 0 s)) (shapeCast_1ab_ab_apply v35 shapeCasts_S1x1x512_S1x512 0 s)

end AtIdeal

/-- The first accumulator after a half's first point: the block's sum of unit rows per segment. -/
theorem out0_A_3_apply (c : Dev nD) (i : grid0.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x512x16 .f32) (harg5 : arg5.IsWhole) (arg6 : Memref sig .tc .vmem S1x1x512 .f32) (harg6 : arg6.IsWhole) (hc0 : cond0_0 i)
    (x0 : Vec Ideal S2000x16 .f32) (x1 : Vec Ideal S2000x1 .i32) (x2 : Vec Ideal S2000x1 .i32) (s : Fin 512) (d : Fin 16) :
    out0_A_3 (F := Ideal) c i arg2 harg2 arg3 harg3 arg4 harg4 arg5 harg5 arg6 harg6 hc0 x0 x1 x2 (ix3 0 s d)
      = ∑ r : Fin 2000, hot (blkSeg x1 x2 r) s * unitRow (blkRow x0 r) d := by
  refine (congrFun (out0_A_3_eq (F := Ideal) c i arg2 harg2 arg3 harg3 arg4 harg4 arg5 harg5 arg6 harg6 hc0 x0 x1 x2) (ix3 0 s d)).trans ?_
  refine (pay6_apply x0 x1 x2 (k0_pay2 (F := Ideal)) s d).trans ?_
  rw [pay2_apply, zero_add]

/-- The first accumulator after any other point: what the point before left plus the block's sum of unit rows per segment. -/
theorem out0_B_3_apply (c : Dev nD) (i : grid0.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x512x16 .f32) (harg5 : arg5.IsWhole) (arg6 : Memref sig .tc .vmem S1x1x512 .f32) (harg6 : arg6.IsWhole) (hc0 : ¬cond0_0 i)
    (x0 : Vec Ideal S2000x16 .f32) (x1 : Vec Ideal S2000x1 .i32) (x2 : Vec Ideal S2000x1 .i32)
    (xo3 : Vec Ideal S1x512x16 .f32) (xo4 : Vec Ideal S1x1x512 .f32) (s : Fin 512) (d : Fin 16) :
    out0_B_3 (F := Ideal) c i arg2 harg2 arg3 harg3 arg4 harg4 arg5 harg5 arg6 harg6 hc0 x0 x1 x2 xo3 xo4 (ix3 0 s d)
      = xo3 (ix3 0 s d) + ∑ r : Fin 2000, hot (blkSeg x1 x2 r) s * unitRow (blkRow x0 r) d :=
  (congrFun (out0_B_3_eq (F := Ideal) c i arg2 harg2 arg3 harg3 arg4 harg4 arg5 harg5 arg6 harg6 hc0 x0 x1 x2 xo3 xo4) (ix3 0 s d)).trans (pay6_apply x0 x1 x2 xo3 s d)

/-- The second accumulator after a half's first point: the block's number of points per segment. -/
theorem out0_A_4_apply (c : Dev nD) (i : grid0.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x512x16 .f32) (harg5 : arg5.IsWhole) (arg6 : Memref sig .tc .vmem S1x1x512 .f32) (harg6 : arg6.IsWhole) (hc0 : cond0_0 i)
    (x0 : Vec Ideal S2000x16 .f32) (x1 : Vec Ideal S2000x1 .i32) (x2 : Vec Ideal S2000x1 .i32) (s : Fin 512) :
    out0_A_4 (F := Ideal) c i arg2 harg2 arg3 harg3 arg4 harg4 arg5 harg5 arg6 harg6 hc0 x0 x1 x2 (ix3 0 0 s)
      = ∑ r : Fin 2000, hot (blkSeg x1 x2 r) s := by
  refine (congrFun (out0_A_4_eq (F := Ideal) c i arg2 harg2 arg3 harg3 arg4 harg4 arg5 harg5 arg6 harg6 hc0 x0 x1 x2) (ix3 0 0 s)).trans ?_
  refine (pay1_apply (k0_pay5 (F := Ideal) x1 x2) (k0_pay3 (F := Ideal)) s).trans ?_
  rw [pay3_apply, zero_add, pay5_apply]

/-- The second accumulator after any other point: what the point before left plus the block's number of points per segment. -/
theorem out0_B_4_apply (c : Dev nD) (i : grid0.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S1x512x16 .f32) (harg5 : arg5.IsWhole) (arg6 : Memref sig .tc .vmem S1x1x512 .f32) (harg6 : arg6.IsWhole) (hc0 : ¬cond0_0 i)
    (x0 : Vec Ideal S2000x16 .f32) (x1 : Vec Ideal S2000x1 .i32) (x2 : Vec Ideal S2000x1 .i32)
    (xo3 : Vec Ideal S1x512x16 .f32) (xo4 : Vec Ideal S1x1x512 .f32) (s : Fin 512) :
    out0_B_4 (F := Ideal) c i arg2 harg2 arg3 harg3 arg4 harg4 arg5 harg5 arg6 harg6 hc0 x0 x1 x2 xo3 xo4 (ix3 0 0 s)
      = xo4 (ix3 0 0 s) + ∑ r : Fin 2000, hot (blkSeg x1 x2 r) s := by
  refine (congrFun (out0_B_4_eq (F := Ideal) c i arg2 harg2 arg3 harg3 arg4 harg4 arg5 harg5 arg6 harg6 hc0 x0 x1 x2 xo3 xo4) (ix3 0 0 s)).trans ?_
  refine (pay1_apply (k0_pay5 (F := Ideal) x1 x2) xo4 s).trans ?_
  rw [pay5_apply]

end Cert.KernelIdeal.Body0

end
-- ==== Proof.KView.lean ====
/-
  The kernel program's arrays read by point number: the point cloud's rows, the segment words (from the two reshaped
  `[2000000, 1]` word arrays the kernel's windows stage), and the centre table, for any contents `V` of the TensorCore's
  buffers; and the same for the launch memory `m`, from the argument arrays themselves.
-/
import proofs.«419743_j24764781428790_1_alg».proof.KernelIdeal
import proofs.«419743_j24764781428790_1_alg».proof.Proof.Spec

noncomputable section

namespace Cert.KernelIdeal.View

open Cert.KernelIdeal Idealize.ShloMosaic Idealize.ShloMosaic.TcCoe Idealize.ShloMosaic.ValueIdx Idealize.SL.Sem

variable (V : (c : Dev nD) → (b : Ref sig .tc) → Buf (Elt Ideal) ((c : Thread nD τ).loc b))

/-- Row `n` of the point cloud as the region finds it. -/
def rowV (c : Dev nD) (n : ℕ) : Fin 16 → EReal := Cert.Spec.rowsOf (V c main_arg0) n

/-- The segment word of point `n` as the region finds the two reshaped word arrays. -/
def segV (c : Dev nD) (n : ℕ) : BitVec 32 := Cert.Spec.segOf2 (V c main_v0) (V c main_v1) n

/-- The centre table as the second region finds it. -/
def tblV (c : Dev nD) : Fin 512 → Fin 16 → EReal := Cert.Spec.tableOf (V c main_v8)

variable (m : (ℓ : Loc nD τ sig) → Buf (Elt Ideal) ℓ)

/-- Row `n` of the point cloud at launch. -/
def rowsM (c : Dev nD) : ℕ → Fin 16 → EReal := Cert.Spec.rowsOf (m ((c : Thread nD τ).loc main_arg0))

/-- The segment word of point `n` at launch. -/
def segM (c : Dev nD) : ℕ → BitVec 32 :=
  Cert.Spec.segOf (m ((c : Thread nD τ).loc main_arg1)) (m ((c : Thread nD τ).loc main_arg2))

end Cert.KernelIdeal.View

end
-- ==== Proof.KRegion0.lean ====
/-
  The first kernel's two result arrays, entry by entry, for any contents `V` of the buffers it is entered with.

  The grid is two halves of five hundred points; the output blocks are indexed by the half alone, so each is carried across
  the half's points and written back after the last. What the accumulators hold after a point is the fold of the blocks'
  contributions from the half's first point, and the block written back for half `p` is that fold over all five hundred:
  entry (p, s, d) of the first array is half `p`'s share of the sum of unit rows of segment s, entry (p, 0, s) of the second
  half `p`'s share of the segment's number of points.
-/
import proofs.«419743_j24764781428790_1_alg».proof.Proof.Gen.KernelIdeal.Frame
import proofs.«419743_j24764781428790_1_alg».proof.Proof.KBody0
import proofs.«419743_j24764781428790_1_alg».proof.Proof.KView
import Idealize.ShloMosaic.Lib.Pipeline.Value

noncomputable section

namespace Cert.KernelIdeal.Region0

open Cert.KernelIdeal Cert.KernelIdeal.Gen Cert.KernelIdeal.View Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The input blocks are rows of the arrays -/

/-- The block index of each input window at a point, on both axes: the point's number, and zero. Decided once over the
    thousand points of the grid. -/
theorem idx_facts : ∀ t : Fin cfg0.N,
    win0_0.index t 0 = t.val ∧ win0_0.index t 1 = 0 ∧ win0_1.index t 0 = t.val ∧ win0_1.index t 1 = 0
    ∧ win0_2.index t 0 = t.val ∧ win0_2.index t 1 = 0 :=
  (by decide +kernel : ∀ t : Fin grid0.N,
    win0_0.index t 0 = t.val ∧ win0_0.index t 1 = 0 ∧ win0_1.index t 0 = t.val ∧ win0_1.index t 1 = 0
    ∧ win0_2.index t 0 = t.val ∧ win0_2.index t 1 = 0)

/-- Entry (r, k) of the point cloud's block at point t is entry (2000 t + r, k) of the point cloud. -/
theorem blk0_apply (c : Dev nD) (t : Fin cfg0.N) (r : Fin 2000) (k : Fin 16) (h : t.val * 2000 + r.val < 2000000) :
    (iblk0 V c 0 t : Vec Ideal S2000x16 .f32) (ix2 r k)
      = (V c main_arg0 : S2000000x16.Idx → EReal) (ix2 ⟨t.val * 2000 + r.val, h⟩ k) := by
  unfold iblk0
  rw [View.read_apply]
  show V c main_arg0 _ = V c main_arg0 _
  congr 1
  funext a
  apply Fin.ext
  match a with
  | ⟨0, _⟩ => show win0_0.index t 0 * 2000 + 1 * r.val = t.val * 2000 + r.val; rw [(idx_facts t).1]; omega
  | ⟨1, _⟩ => show win0_0.index t 1 * 16 + 1 * k.val = k.val; rw [(idx_facts t).2.1]; omega

/-- Entry (r, 0) of the label words' block at point t is entry (2000 t + r, 0) of the label words. -/
theorem blk1_apply (c : Dev nD) (t : Fin cfg0.N) (r : Fin 2000) (h : t.val * 2000 + r.val < 2000000) :
    (iblk0 V c 1 t : Vec Ideal S2000x1 .i32) (ix2 r 0)
      = (V c main_v0 : S2000000x1.Idx → BitVec 32) (ix2 ⟨t.val * 2000 + r.val, h⟩ 0) := by
  unfold iblk0
  rw [View.read_apply]
  show V c main_v0 _ = V c main_v0 _
  congr 1
  funext a
  apply Fin.ext
  match a with
  | ⟨0, _⟩ => show win0_1.index t 0 * 2000 + 1 * r.val = t.val * 2000 + r.val; rw [(idx_facts t).2.2.1]; omega
  | ⟨1, _⟩ => show win0_1.index t 1 * 1 + 1 * 0 = 0; rw [(idx_facts t).2.2.2.1]

/-- Entry (r, 0) of the subbatch words' block at point t is entry (2000 t + r, 0) of the subbatch words. -/
theorem blk2_apply (c : Dev nD) (t : Fin cfg0.N) (r : Fin 2000) (h : t.val * 2000 + r.val < 2000000) :
    (iblk0 V c 2 t : Vec Ideal S2000x1 .i32) (ix2 r 0)
      = (V c main_v1 : S2000000x1.Idx → BitVec 32) (ix2 ⟨t.val * 2000 + r.val, h⟩ 0) := by
  unfold iblk0
  rw [View.read_apply]
  show V c main_v1 _ = V c main_v1 _
  congr 1
  funext a
  apply Fin.ext
  match a with
  | ⟨0, _⟩ => show win0_2.index t 0 * 2000 + 1 * r.val = t.val * 2000 + r.val; rw [(idx_facts t).2.2.2.2.1]; omega
  | ⟨1, _⟩ => show win0_2.index t 1 * 1 + 1 * 0 = 0; rw [(idx_facts t).2.2.2.2.2]

/-! ## A block's contribution is its share of the sum over the points -/

/-- The three input blocks at a point: the point cloud's rows, the label words, the subbatch words. -/
abbrev xb0 (c : Dev nD) (t : Fin cfg0.N) : Vec Ideal S2000x16 .f32 := iblk0 V c 0 t
abbrev xb1 (c : Dev nD) (t : Fin cfg0.N) : Vec Ideal S2000x1 .i32 := iblk0 V c 1 t
abbrev xb2 (c : Dev nD) (t : Fin cfg0.N) : Vec Ideal S2000x1 .i32 := iblk0 V c 2 t

/-- One block's share of a sum over the points: the two thousand points from point 2000 n. -/
def blockSum (g : ℕ → EReal) (n : ℕ) : EReal := ∑ r : Fin 2000, g (n * 2000 + r.val)

/-- A half's share is the sum of its five hundred blocks' shares. -/
theorem half_eq_blocks (g : ℕ → EReal) (p : ℕ) : half g p = ∑ j ∈ Finset.range 500, blockSum g (500 * p + j) := rfl

/-- Row r of the block at point t is row 2000 t + r of the point cloud. -/
theorem blkRow_eq (c : Dev nD) (t : Fin cfg0.N) (r : Fin 2000) :
    blkRow (xb0 V c t) r = rowV V c (t.val * 2000 + r.val) := by
  have hN : t.val < 1000 := lt_of_lt_of_eq t.isLt (show cfg0.N = 1000 from N_0)
  have h : t.val * 2000 + r.val < 2000000 := by have := r.isLt; omega
  funext k
  unfold blkRow rowV rowsOf
  rw [dif_pos h]
  exact blk0_apply V c t r k h

/-- The segment word of row r of the block at point t is the segment word of point 2000 t + r. -/
theorem blkSeg_eq (c : Dev nD) (t : Fin cfg0.N) (r : Fin 2000) :
    blkSeg (xb1 V c t) (xb2 V c t) r = segV V c (t.val * 2000 + r.val) := by
  have hN : t.val < 1000 := lt_of_lt_of_eq t.isLt (show cfg0.N = 1000 from N_0)
  have h : t.val * 2000 + r.val < 2000000 := by have := r.isLt; omega
  unfold blkSeg segV segOf2
  rw [dif_pos h]
  exact congrArg₂ (fun a b : BitVec 32 => a * 64#32 + b) (blk2_apply V c t r h) (blk1_apply V c t r h)

/-- The block at point t adds to entry (s, d) of the first accumulator block t's share of the sum of unit rows. -/
theorem contrib3_eq (c : Dev nD) (t : Fin cfg0.N) (s : Fin 512) (d : Fin 16) :
    (∑ r : Fin 2000, hot (blkSeg (xb1 V c t) (xb2 V c t) r) s * unitRow (blkRow (xb0 V c t) r) d)
      = blockSum (fun n => hot (segV V c n) s * unitRow (rowV V c n) d) t.val := by
  unfold blockSum
  exact Finset.sum_congr rfl fun r _ => by rw [blkSeg_eq, blkRow_eq]

/-- The block at point t adds to entry s of the second accumulator block t's share of the number of points. -/
theorem contrib4_eq (c : Dev nD) (t : Fin cfg0.N) (s : Fin 512) :
    (∑ r : Fin 2000, hot (blkSeg (xb1 V c t) (xb2 V c t) r) s)
      = blockSum (fun n => hot (segV V c n) s) t.val := by
  unfold blockSum
  exact Finset.sum_congr rfl fun r _ => by rw [blkSeg_eq]

/-! ## The first accumulator: the fold of the blocks' shares from the half's first point -/

/-- At a half's first point the first accumulator is reset: entry (s, d) holds the block's share alone. -/
theorem acc3_reset (c : Dev nD) (t : Fin cfg0.N) (h0 : t.val % 500 = 0) (s : Fin 512) (d : Fin 16) :
    (outsAt0 V c t.val t.isLt).1 (ix3 0 s d)
      = blockSum (fun n => hot (segV V c n) s * unitRow (rowV V c n) d) t.val := by
  rw [outsAt0_A V c t h0]
  dsimp only
  exact (Body0.out0_A_3_apply c (grid0.coords t) (ms0_0 t) (hs0_0 t) (ms0_1 t) (hs0_1 t) (ms0_2 t) (hs0_2 t) (ms0_3 t) (hs0_3 t)
    (ms0_4 t) (hs0_4 t) ((hcond0_0 t).mpr h0) (xb0 V c t) (xb1 V c t) (xb2 V c t) s d).trans (contrib3_eq V c t s d)

/-- At any other point entry (s, d) of the first accumulator is what the point before left plus the block's share. -/
theorem acc3_step (c : Dev nD) (t : Fin cfg0.N) (h0 : ¬t.val % 500 = 0) (s : Fin 512) (d : Fin 16) :
    (outsAt0 V c t.val t.isLt).1 (ix3 0 s d)
      = (outsAt0 V c (t.val - 1) (Nat.lt_of_le_of_lt (Nat.sub_le _ _) t.isLt)).1 (ix3 0 s d)
        + blockSum (fun n => hot (segV V c n) s * unitRow (rowV V c n) d) t.val := by
  rw [outsAt0_B V c t h0]
  dsimp only
  exact (Body0.out0_B_3_apply c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (xb0 V c t) (xb1 V c t) (xb2 V c t)
    (outsAt0 V c (t.val - 1) (Nat.lt_of_le_of_lt (Nat.sub_le _ _) t.isLt)).1
    (outsAt0 V c (t.val - 1) (Nat.lt_of_le_of_lt (Nat.sub_le _ _) t.isLt)).2 s d).trans
    (congrArg _ (contrib3_eq V c t s d))

/-- After point n entry (s, d) of the first accumulator is the sum of the shares of the blocks from the half's first point
    through n: by induction on the point, a reset at the multiples of five hundred and one more share at every other point. -/
theorem acc3_apply (c : Dev nD) (s : Fin 512) (d : Fin 16) : ∀ (n : ℕ) (h : n < cfg0.N),
    (outsAt0 V c n h).1 (ix3 0 s d)
      = ∑ j ∈ Finset.range (n % 500 + 1),
          blockSum (fun n => hot (segV V c n) s * unitRow (rowV V c n) d) (500 * (n / 500) + j)
  | 0, h => by
    refine (acc3_reset V c ⟨0, h⟩ rfl s d).trans ?_
    show blockSum _ 0 = ∑ j ∈ Finset.range 1, _
    rw [Finset.sum_range_one]
  | n + 1, h => by
    by_cases h0 : (n + 1) % 500 = 0
    · refine (acc3_reset V c ⟨n + 1, h⟩ h0 s d).trans ?_
      rw [h0, Nat.zero_add, Finset.sum_range_one]
      exact congrArg (blockSum _) (by dsimp only; omega)
    · refine (acc3_step V c ⟨n + 1, h⟩ h0 s d).trans ?_
      have e1 : (n + 1) % 500 = n % 500 + 1 := by omega
      have e2 : (n + 1) / 500 = n / 500 := by omega
      rw [e1, e2, Finset.sum_range_succ]
      exact congrArg₂ (· + ·) (acc3_apply c s d n _) (congrArg (blockSum _) (by dsimp only; omega))

/-! ## The first result array: each half's last point writes the half's share -/

/-- The block index of each output window at a point: the half's number on the leading axis, zero on the others. Decided
    once over the thousand points of the grid. -/
theorem out_idx_facts : ∀ t : Fin cfg0.N,
    win0_3.index t 0 = t.val / 500 ∧ win0_3.index t 1 = 0 ∧ win0_3.index t 2 = 0
    ∧ win0_4.index t 0 = t.val / 500 ∧ win0_4.index t 1 = 0 ∧ win0_4.index t 2 = 0 :=
  (by decide +kernel : ∀ t : Fin grid0.N,
    win0_3.index t 0 = t.val / 500 ∧ win0_3.index t 1 = 0 ∧ win0_3.index t 2 = 0
    ∧ win0_4.index t 0 = t.val / 500 ∧ win0_4.index t 1 = 0 ∧ win0_4.index t 2 = 0)

/-- The first result array as one function of the index: entry (p, s, d) is half p's share of segment s's sum of unit rows. -/
def res3 (c : Dev nD) : S2x512x16.Idx → EReal :=
  fun i => half (fun n => hot (segV V c n) (i 1) * unitRow (rowV V c n) (i 2)) (i 0).val

/-- After a half's last point the first accumulator holds the half's share: entry y of the block is the entry of the result
    array with the half's number in front. -/
theorem acc3_last (c : Dev nD) (t : Fin cfg0.N) (h : t.val % 500 = 499) (y : S1x512x16.Idx) (i : S2x512x16.Idx)
    (hi0 : (i 0).val = t.val / 500) (hi1 : (i 1).val = (y 1).val) (hi2 : (i 2).val = (y 2).val) :
    (outsAt0 V c t.val t.isLt).1 y = res3 V c i := by
  obtain ⟨a, s, d, rfl⟩ : ∃ (a : Fin 1) (s : Fin 512) (d : Fin 16), y = ix3 a s d := ⟨y 0, y 1, y 2, eq_ix3 y⟩
  obtain ⟨p, s', d', rfl⟩ : ∃ (p : Fin 2) (s' : Fin 512) (d' : Fin 16), i = ix3 p s' d' := ⟨i 0, i 1, i 2, eq_ix3 i⟩
  have ha : a = 0 := Subsingleton.elim _ _
  have hs : s' = s := Fin.ext hi1
  have hd : d' = d := Fin.ext hi2
  have hp : p.val = t.val / 500 := hi0
  subst ha hs hd
  rw [acc3_apply V c _ _ t.val t.isLt, h]
  unfold res3
  show ∑ j ∈ Finset.range 500, _ = half _ p.val
  rw [half_eq_blocks, hp]

/-- What a half's last point writes back of the first accumulator is the result array's block for that half. -/
theorem flushed3_eq (c : Dev nD) (t : Fin cfg0.N) (hf : (cfg0.win 3).flush t = true) :
    (dat0 V c).flushed 3 t = ((cfg0.win 3).blk t).view.read (Elt Ideal) (res3 V c) := by
  have h499 : t.val % 500 = 499 := (flush0_3 t).mp hf
  obtain ⟨i0, i1, i2, -⟩ := out_idx_facts t
  show (cfg0.win 3).cut (grid0.coords t) ((dat0 V c).after 3 t) = _
  rw [after0_3]
  funext y
  rw [View.read_apply]
  have y0 : (y 0).val < 1 := (y 0).isLt
  refine acc3_last V c t h499 _ _ ?_ ?_ ?_
  · show win0_3.index t 0 * 1 + 1 * (y 0).val = t.val / 500
    rw [i0]; omega
  · show win0_3.index t 1 * 512 + 1 * (y 1).val = (y 1).val
    rw [i1]; omega
  · show win0_3.index t 2 * 16 + 1 * (y 2).val = (y 2).val
    rw [i2]; omega

/-- Entry (p, s, d) of the first result array after the region: half p's share of segment s's sum of unit rows. The half's
    last point, 500 p + 499, writes the block that holds the entry. -/
theorem arr3_apply (c : Dev nD) (p : Fin 2) (s : Fin 512) (d : Fin 16) :
    (dat0 V c).arrAt 3 cfg0.N (ix3 p s d) = half (fun n => hot (segV V c n) s * unitRow (rowV V c n) d) p.val := by
  have hN : cfg0.N = 1000 := N_0
  have hp := p.isLt
  have ht : 500 * p.val + 499 < cfg0.N := by rw [hN]; omega
  have hf : (cfg0.win 3).flush ⟨500 * p.val + 499, ht⟩ = true := (flush0_3 _).mpr (by dsimp only; omega)
  obtain ⟨i0, i1, i2, -⟩ := out_idx_facts ⟨500 * p.val + 499, ht⟩
  refine ((dat0 V c).arrAt_apply_of_mem 3 (res3 V c) (flushed3_eq V c) cfg0.N ⟨500 * p.val + 499, ht⟩ (ix3 p s d) ht hf ?_).trans rfl
  show ix3 p s d ∈ ((View.whole main_v2_0).slice (win0_3.rect ⟨500 * p.val + 499, ht⟩)).set
  rw [View.set_slice_whole, Rect.mem_set_unit]
  intro a
  match a with
  | ⟨0, _⟩ =>
    show win0_3.index ⟨500 * p.val + 499, ht⟩ 0 * 1 ≤ p.val ∧ p.val < win0_3.index ⟨500 * p.val + 499, ht⟩ 0 * 1 + 1
    rw [i0]; dsimp only; omega
  | ⟨1, _⟩ =>
    show win0_3.index ⟨500 * p.val + 499, ht⟩ 1 * 512 ≤ s.val ∧ s.val < win0_3.index ⟨500 * p.val + 499, ht⟩ 1 * 512 + 512
    rw [i1]; omega
  | ⟨2, _⟩ =>
    show win0_3.index ⟨500 * p.val + 499, ht⟩ 2 * 16 ≤ d.val ∧ d.val < win0_3.index ⟨500 * p.val + 499, ht⟩ 2 * 16 + 16
    rw [i2]; omega

/-! ## The second accumulator: the same fold, of the numbers of points -/

/-- At a half's first point the second accumulator is reset: entry s holds the block's share alone. -/
theorem acc4_reset (c : Dev nD) (t : Fin cfg0.N) (h0 : t.val % 500 = 0) (s : Fin 512) :
    (outsAt0 V c t.val t.isLt).2 (ix3 0 0 s) = blockSum (fun n => hot (segV V c n) s) t.val := by
  rw [outsAt0_A V c t h0]
  dsimp only
  exact (Body0.out0_A_4_apply c (grid0.coords t) (ms0_0 t) (hs0_0 t) (ms0_1 t) (hs0_1 t) (ms0_2 t) (hs0_2 t) (ms0_3 t) (hs0_3 t)
    (ms0_4 t) (hs0_4 t) ((hcond0_0 t).mpr h0) (xb0 V c t) (xb1 V c t) (xb2 V c t) s).trans (contrib4_eq V c t s)

/-- At any other point entry s of the second accumulator is what the point before left plus the block's share. -/
theorem acc4_step (c : Dev nD) (t : Fin cfg0.N) (h0 : ¬t.val % 500 = 0) (s : Fin 512) :
    (outsAt0 V c t.val t.isLt).2 (ix3 0 0 s)
      = (outsAt0 V c (t.val - 1) (Nat.lt_of_le_of_lt (Nat.sub_le _ _) t.isLt)).2 (ix3 0 0 s)
        + blockSum (fun n => hot (segV V c n) s) t.val := by
  rw [outsAt0_B V c t h0]
  dsimp only
  exact (Body0.out0_B_4_apply c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (xb0 V c t) (xb1 V c t) (xb2 V c t)
    (outsAt0 V c (t.val - 1) (Nat.lt_of_le_of_lt (Nat.sub_le _ _) t.isLt)).1
    (outsAt0 V c (t.val - 1) (Nat.lt_of_le_of_lt (Nat.sub_le _ _) t.isLt)).2 s).trans
    (congrArg _ (contrib4_eq V c t s))

/-- After point n entry s of the second accumulator is the sum of the shares of the blocks from the half's first point
    through n. -/
theorem acc4_apply (c : Dev nD) (s : Fin 512) : ∀ (n : ℕ) (h : n < cfg0.N),
    (outsAt0 V c n h).2 (ix3 0 0 s)
      = ∑ j ∈ Finset.range (n % 500 + 1), blockSum (fun n => hot (segV V c n) s) (500 * (n / 500) + j)
  | 0, h => by
    refine (acc4_reset V c ⟨0, h⟩ rfl s).trans ?_
    show blockSum _ 0 = ∑ j ∈ Finset.range 1, _
    rw [Finset.sum_range_one]
  | n + 1, h => by
    by_cases h0 : (n + 1) % 500 = 0
    · refine (acc4_reset V c ⟨n + 1, h⟩ h0 s).trans ?_
      rw [h0, Nat.zero_add, Finset.sum_range_one]
      exact congrArg (blockSum _) (by dsimp only; omega)
    · refine (acc4_step V c ⟨n + 1, h⟩ h0 s).trans ?_
      have e1 : (n + 1) % 500 = n % 500 + 1 := by omega
      have e2 : (n + 1) / 500 = n / 500 := by omega
      rw [e1, e2, Finset.sum_range_succ]
      exact congrArg₂ (· + ·) (acc4_apply c s n _) (congrArg (blockSum _) (by dsimp only; omega))

/-- The second result array as one function of the index: entry (p, 0, s) is half p's share of segment s's number of points. -/
def res4 (c : Dev nD) : S2x1x512.Idx → EReal :=
  fun i => half (fun n => hot (segV V c n) (i 2)) (i 0).val

/-- After a half's last point the second accumulator holds the half's share: entry y of the block is the entry of the result
    array with the half's number in front. -/
theorem acc4_last (c : Dev nD) (t : Fin cfg0.N) (h : t.val % 500 = 499) (y : S1x1x512.Idx) (i : S2x1x512.Idx)
    (hi0 : (i 0).val = t.val / 500) (hi2 : (i 2).val = (y 2).val) :
    (outsAt0 V c t.val t.isLt).2 y = res4 V c i := by
  obtain ⟨a, b, s, rfl⟩ : ∃ (a : Fin 1) (b : Fin 1) (s : Fin 512), y = ix3 a b s := ⟨y 0, y 1, y 2, eq_ix3 y⟩
  obtain ⟨p, b', s', rfl⟩ : ∃ (p : Fin 2) (b' : Fin 1) (s' : Fin 512), i = ix3 p b' s' := ⟨i 0, i 1, i 2, eq_ix3 i⟩
  have ha : a = 0 := Subsingleton.elim _ _
  have hb : b = 0 := Subsingleton.elim _ _
  have hs : s' = s := Fin.ext hi2
  have hp : p.val = t.val / 500 := hi0
  subst ha hb hs
  rw [acc4_apply V c _ t.val t.isLt, h]
  unfold res4
  show ∑ j ∈ Finset.range 500, _ = half _ p.val
  rw [half_eq_blocks, hp]

/-- What a half's last point writes back of the second accumulator is the result array's block for that half. -/
theorem flushed4_eq (c : Dev nD) (t : Fin cfg0.N) (hf : (cfg0.win 4).flush t = true) :
    (dat0 V c).flushed 4 t = ((cfg0.win 4).blk t).view.read (Elt Ideal) (res4 V c) := by
  have h499 : t.val % 500 = 499 := (flush0_4 t).mp hf
  obtain ⟨-, -, -, i0, i1, i2⟩ := out_idx_facts t
  show (cfg0.win 4).cut (grid0.coords t) ((dat0 V c).after 4 t) = _
  rw [after0_4]
  funext y
  rw [View.read_apply]
  have y0 : (y 0).val < 1 := (y 0).isLt
  refine acc4_last V c t h499 _ _ ?_ ?_
  · show win0_4.index t 0 * 1 + 1 * (y 0).val = t.val / 500
    rw [i0]; omega
  · show win0_4.index t 2 * 512 + 1 * (y 2).val = (y 2).val
    rw [i2]; omega

/-- Entry (p, 0, s) of the second result array after the region: half p's share of segment s's number of points. The half's
    last point, 500 p + 499, writes the block that holds the entry. -/
theorem arr4_apply (c : Dev nD) (p : Fin 2) (s : Fin 512) :
    (dat0 V c).arrAt 4 cfg0.N (ix3 p 0 s) = half (fun n => hot (segV V c n) s) p.val := by
  have hN : cfg0.N = 1000 := N_0
  have hp := p.isLt
  have ht : 500 * p.val + 499 < cfg0.N := by rw [hN]; omega
  have hf : (cfg0.win 4).flush ⟨500 * p.val + 499, ht⟩ = true := (flush0_4 _).mpr (by dsimp only; omega)
  obtain ⟨-, -, -, i0, i1, i2⟩ := out_idx_facts ⟨500 * p.val + 499, ht⟩
  refine ((dat0 V c).arrAt_apply_of_mem 4 (res4 V c) (flushed4_eq V c) cfg0.N ⟨500 * p.val + 499, ht⟩ (ix3 p 0 s) ht hf ?_).trans rfl
  show ix3 p 0 s ∈ ((View.whole main_v2_1).slice (win0_4.rect ⟨500 * p.val + 499, ht⟩)).set
  rw [View.set_slice_whole, Rect.mem_set_unit]
  intro a
  match a with
  | ⟨0, _⟩ =>
    show win0_4.index ⟨500 * p.val + 499, ht⟩ 0 * 1 ≤ p.val ∧ p.val < win0_4.index ⟨500 * p.val + 499, ht⟩ 0 * 1 + 1
    rw [i0]; dsimp only; omega
  | ⟨1, _⟩ =>
    show win0_4.index ⟨500 * p.val + 499, ht⟩ 1 * 1 ≤ 0 ∧ 0 < win0_4.index ⟨500 * p.val + 499, ht⟩ 1 * 1 + 1
    rw [i1]; omega
  | ⟨2, _⟩ =>
    show win0_4.index ⟨500 * p.val + 499, ht⟩ 2 * 512 ≤ s.val ∧ s.val < win0_4.index ⟨500 * p.val + 499, ht⟩ 2 * 512 + 512
    rw [i2]; omega

end Cert.KernelIdeal.Region0

end
-- ==== Proof.KBody1.lean ====
/-
  What one grid point of the second kernel leaves in its accumulator, entry by entry.

  The body loads a block of two thousand points and the table of centres, scales each row to unit length, selects each
  point's centre row as (one-hot) · (table), takes the squared hinge of the L1 distance between the two rows, and adds
  to the accumulator, per segment, the sum of the hinges of the block's points weighted by the one-hot matrix. At the
  first point of a half the accumulator is first set to zero.
-/
import proofs.«419743_j24764781428790_1_alg».proof.Proof.Gen.KernelIdeal.Frame
import proofs.«419743_j24764781428790_1_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Body1

open Cert.KernelIdeal Cert.KernelIdeal.Gen Cert.Spec
open Idealize.ShloMosaic Idealize.ShloMosaic.TcCoe Idealize.ShloMosaic.ValueIdx Idealize.SL.Sem

/-! ## The found pieces: each case's accumulator is the update's payload over the loaded blocks -/

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Any point but a half's first: the one covering store's payload over the whole buffers the loads read. -/
theorem out1_B_4_eq (c : Dev nD) (i : grid1.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S512x16 .f32) (harg5 : arg5.IsWhole) (arg6 : Memref sig .tc .vmem S1x1x512 .f32) (harg6 : arg6.IsWhole) (hc0 : ¬cond1_0 i)
    (x0 : Vec F S2000x16 .f32) (x1 : Vec F S2000x1 .i32) (x2 : Vec F S2000x1 .i32) (x3 : Vec F S512x16 .f32) (xo4 : Vec F S1x1x512 .f32) :
    out1_B_4 c i arg2 harg2 arg3 harg3 arg4 harg4 arg5 harg5 arg6 harg6 hc0 x0 x1 x2 x3 xo4 = k1_pay1 (k1_pay3 x0 x1 x2 x3) xo4 := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero hz3]
  simp only [View.readAt_eq_ld, harg2.read_unread, harg3.read_unread, harg4.read_unread, harg5.read_unread, harg6.read_unread,
    View.ld_unit_zero (S := S2000x16) hz2, View.ld_unit_zero (S := S2000x1) hz2, View.ld_unit_zero (S := S512x16) hz2,
    View.ld_unit_zero (S := S1x1x512) hz3]

/-- A half's first point: the zero block is stored, read back, and the update stored over it. -/
theorem out1_A_4_eq (c : Dev nD) (i : grid1.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S512x16 .f32) (harg5 : arg5.IsWhole) (arg6 : Memref sig .tc .vmem S1x1x512 .f32) (harg6 : arg6.IsWhole) (hc0 : cond1_0 i)
    (x0 : Vec F S2000x16 .f32) (x1 : Vec F S2000x1 .i32) (x2 : Vec F S2000x1 .i32) (x3 : Vec F S512x16 .f32) :
    out1_A_4 c i arg2 harg2 arg3 harg3 arg4 harg4 arg5 harg5 arg6 harg6 hc0 x0 x1 x2 x3 = k1_pay1 (k1_pay3 x0 x1 x2 x3) (k1_pay2 (F := F)) := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S1x1x512) hz3, View.readCov_unit_zero (S := S1x1x512) _ hz3]
  simp only [View.readAt_eq_ld, harg2.read_unread, harg3.read_unread, harg4.read_unread, harg5.read_unread,
    View.ld_unit_zero (S := S2000x16) hz2, View.ld_unit_zero (S := S2000x1) hz2, View.ld_unit_zero (S := S512x16) hz2]

end Pieces

/-! ## Layout steps read at an index: a column kept through a reduction -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The source index of a sum over the rows of a `[2000, 512]` array, at column `s` and row `k`. -/
theorem lift_rows (s : Fin 512) (k : Fin 2000) : reduces_S2000x512_S512.lift (ix1 s) k = ix2 k s :=
  funext fun a => Fin.ext (match a with | ⟨0, _⟩ => rfl | ⟨1, _⟩ => rfl)

/-- The source index of a sum along the rows of a `[2000, 16]` array, at row `r` and column `k`. -/
theorem lift_cols (r : Fin 2000) (k : Fin 16) : reduces_S2000x16_S2000.lift (ix1 r) k = ix2 r k :=
  funext fun a => Fin.ext (match a with | ⟨0, _⟩ => rfl | ⟨1, _⟩ => rfl)

/-! ## The update: the accumulator plus the column sums of the block's weighted hinges -/

/-- The update's payload at segment `s`: the accumulator's entry plus the sum over the block's rows of column `s`. -/
theorem k1_pay1_apply (v39 : FVec Ideal S2000x512 .f32) (v42 : Vec Ideal S1x1x512 .f32) (s : Fin 512) :
    k1_pay1 (F := Ideal) v39 v42 (ix3 0 0 s) = v42 (ix3 0 0 s) + ∑ r : Fin 2000, v39 (ix2 r s) := by
  unfold k1_pay1
  refine (shapeCast_ab_1ab_apply _ _ 0 0 s).trans ?_
  refine (addf_apply _ _ _).trans ?_
  refine congrArg₂ (· + ·) (shapeCast_1ab_ab_apply v42 _ 0 s) ?_
  refine (shapeCast_a_1a_apply _ _ 0 s).trans ?_
  refine (Ideal.multiReduction_add_single v39 _ reduces_S2000x512_S512 (.inl rfl) rfl (ix1 s)).trans ?_
  exact Finset.sum_congr rfl fun k _ => congrArg v39 (lift_rows s k)

/-- The reset's payload is zero everywhere. -/
theorem k1_pay2_apply (s : Fin 512) : k1_pay2 (F := Ideal) (ix3 0 0 s) = 0 := by
  unfold k1_pay2
  refine (shapeCast_ab_1ab_apply _ _ 0 0 s).trans ?_
  exact Ideal.ofBits_zero_f32

/-! ## The block's arithmetic, stage by stage -/

/-- The rows of a block scaled to unit length. -/
def unitV (x0 : Vec Ideal S2000x16 .f32) : FVec Ideal S2000x16 .f32 :=
  divf x0 (broadcastTo S2000x16
    (addf (sqrt (shapeCast S2000x1 (multiReduction .add [1] S2000 (mulf x0 x0) 0x00000000#32 reduces_S2000x16_S2000 (.inl rfl) rfl) shapeCasts_S2000_S2000x1))
      (broadcast S2000x1 (Scalar.ofBits (F := Ideal) .f32 0x322BCC77#32)))
    broadcasts_S2000x1_S2000x16)

/-- The segment words of a block's points. -/
def segV (x1 x2 : Vec Ideal S2000x1 .i32) : IVec S2000x1 32 :=
  addi (muli (shapeCast S2000x1 x2 shapeCasts_S2000x1_S2000x1) (broadcast S2000x1 64#32)) (shapeCast S2000x1 x1 shapeCasts_S2000x1_S2000x1)

/-- The one-hot matrix of a block: row `r` marks the segment of point `r`. -/
def hotV (x1 x2 : Vec Ideal S2000x1 .i32) : FVec Ideal S2000x512 .f32 :=
  sitofp .f32 (extui 32 (cmpi .eq (iota .tc S2000x512 32 [1] iota_S2000x512_d1_w32)
    (broadcastTo S2000x512 (segV x1 x2) broadcasts_S2000x1_S2000x512)) natLt_1_32)

/-- The centre rows of a block's points: (one-hot) · (table). -/
def ctrV (x1 x2 : Vec Ideal S2000x1 .i32) (x3 : Vec Ideal S512x16 .f32) : FVec Ideal S2000x16 .f32 :=
  matmul dot_S2000x512_S512x16_S2000x16_1_0_0_1_n_n none (truncf .bf16 (hotV x1 x2) bitsLt_bf16_f32)
    (truncf .bf16 (shapeCast S512x16 x3 shapeCasts_S512x16_S512x16) bitsLt_bf16_f32) (constant S2000x16 .f32 0x00000000#32)

/-- The hinge of each point: its L1 distance from its centre row less one half, cut at zero. -/
def marginV (x0 : Vec Ideal S2000x16 .f32) (x1 x2 : Vec Ideal S2000x1 .i32) (x3 : Vec Ideal S512x16 .f32) : FVec Ideal S2000x1 .f32 :=
  maximumf (subf (shapeCast S2000x1 (multiReduction .add [1] S2000 (absf (subf (ctrV x1 x2 x3) (unitV x0))) 0x00000000#32 reduces_S2000x16_S2000 (.inl rfl) rfl) shapeCasts_S2000_S2000x1)
      (broadcast S2000x1 (Scalar.ofBits (F := Ideal) .f32 0x3F000000#32)))
    (broadcast S2000x1 (Scalar.ofBits (F := Ideal) .f32 0x00000000#32))

/-- The body's product is the one-hot matrix times each row's squared hinge. -/
theorem k1_pay3_eq (x0 : Vec Ideal S2000x16 .f32) (x1 x2 : Vec Ideal S2000x1 .i32) (x3 : Vec Ideal S512x16 .f32) :
    k1_pay3 (F := Ideal) x0 x1 x2 x3
      = mulf (hotV x1 x2) (broadcastTo S2000x512 (mulf (marginV x0 x1 x2 x3) (marginV x0 x1 x2 x3)) broadcasts_S2000x1_S2000x512) := rfl

/-- A unit row at an index. -/
theorem unitV_apply (x0 : Vec Ideal S2000x16 .f32) (r : Fin 2000) (d : Fin 16) :
    unitV x0 (ix2 r d) = unitRow (blkRow x0 r) d := by
  unfold unitV unitRow blkRow
  refine (divf_apply _ _ _).trans ?_
  refine congrArg (Ideal.div (x0 (ix2 r d))) ?_
  refine (broadcastTo_a1_ab_apply _ _ r d).trans ?_
  refine (addf_apply _ _ _).trans ?_
  refine congrArg₂ (· + ·) ?_ rfl
  show Ideal.sqrt _ = Ideal.sqrt _
  refine congrArg Ideal.sqrt ?_
  refine (shapeCast_a_a1_apply _ _ r 0).trans ?_
  refine (Ideal.multiReduction_add_single _ _ reduces_S2000x16_S2000 (.inl rfl) rfl (ix1 r)).trans ?_
  exact Finset.sum_congr rfl fun k _ => congrArg (fun j => x0 j * x0 j) (lift_cols r k)

/-- A one-bit compare of words, widened and read as a signed integer, is the indicator of their equality. -/
theorem onehot_word (a w : BitVec 32) :
    (FloatOps.sitofp (F := Ideal) .f32 ((IntOp.cmpi .eq a w).setWidth 32) : EReal) = if a = w then 1 else 0 := by
  show ((((IntOp.cmpi .eq a w).setWidth 32).toInt : ℝ) : EReal) = _
  unfold IntOp.cmpi
  by_cases h : a = w
  · have hb : (a == w) = true := by simpa using h
    rw [if_pos h, hb]
    have e : ((BitVec.ofBool true).setWidth 32).toInt = 1 := by decide
    rw [e]; simp
  · have hb : (a == w) = false := by simpa using h
    rw [if_neg h, hb]
    have e : ((BitVec.ofBool false).setWidth 32).toInt = 0 := by decide
    rw [e]; simp

/-- The segment word of a row. -/
theorem segV_apply (x1 x2 : Vec Ideal S2000x1 .i32) (r : Fin 2000) : segV x1 x2 (ix2 r 0) = blkSeg x1 x2 r := by
  unfold segV blkSeg
  rw [shapeCast_self, shapeCast_self]
  rfl

/-- The one-hot matrix at an index. -/
theorem hotV_apply (x1 x2 : Vec Ideal S2000x1 .i32) (r : Fin 2000) (k : Fin 512) :
    hotV x1 x2 (ix2 r k) = hot (blkSeg x1 x2 r) k := by
  unfold hotV hot
  refine Eq.trans ?_ (onehot_word (BitVec.ofNat 32 k.val) (blkSeg x1 x2 r))
  show FloatOps.sitofp (F := Ideal) .f32 ((IntOp.cmpi .eq _ _).setWidth 32) = _
  refine congrArg (fun b : BitVec 1 => FloatOps.sitofp (F := Ideal) .f32 (b.setWidth 32)) ?_
  refine congrArg₂ (IntOp.cmpi .eq) ?_ ?_
  · exact iota_single_apply .tc S2000x512 32 1 iota_S2000x512_d1_w32 (ix2 r k)
  · exact (broadcastTo_a1_ab_apply _ _ r k).trans (segV_apply x1 x2 r)

/-! ## The centre row as a matrix product: the operand indices of the contraction -/

theorem lhs_ctr_0 (j : S2000x16.Idx) (q : dot_S2000x512_S512x16_S2000x16_1_0_0_1_n_n.contr.Idx) :
    (dot_S2000x512_S512x16_S2000x16_1_0_0_1_n_n.lhsIdx j q 0).val = (j 0).val := by
  unfold DotDims.lhsIdx
  rw [dif_neg (show ¬(0 : Fin S2000x512.rank) ∈ dot_S2000x512_S512x16_S2000x16_1_0_0_1_n_n.lhsBatch by decide),
    dif_pos (show (0 : Fin S2000x512.rank) ∈ dot_S2000x512_S512x16_S2000x16_1_0_0_1_n_n.lhsNonContracting by decide)]
  rfl

theorem lhs_ctr_1 (j : S2000x16.Idx) (q : dot_S2000x512_S512x16_S2000x16_1_0_0_1_n_n.contr.Idx) :
    (dot_S2000x512_S512x16_S2000x16_1_0_0_1_n_n.lhsIdx j q 1).val = (q ⟨0, by decide⟩).val :=
  dot_S2000x512_S512x16_S2000x16_1_0_0_1_n_n.lhsIdx_val_of_single rfl j q

theorem rhs_ctr_0 (j : S2000x16.Idx) (q : dot_S2000x512_S512x16_S2000x16_1_0_0_1_n_n.contr.Idx) :
    (dot_S2000x512_S512x16_S2000x16_1_0_0_1_n_n.rhsIdx j q 0).val = (q ⟨0, by decide⟩).val :=
  dot_S2000x512_S512x16_S2000x16_1_0_0_1_n_n.rhsIdx_val_of_single rfl j q

theorem rhs_ctr_1 (j : S2000x16.Idx) (q : dot_S2000x512_S512x16_S2000x16_1_0_0_1_n_n.contr.Idx) :
    (dot_S2000x512_S512x16_S2000x16_1_0_0_1_n_n.rhsIdx j q 1).val = (j 1).val := by
  unfold DotDims.rhsIdx
  rw [dif_neg (show ¬(1 : Fin S512x16.rank) ∈ dot_S2000x512_S512x16_S2000x16_1_0_0_1_n_n.rhsBatch by decide),
    dif_pos (show (1 : Fin S512x16.rank) ∈ dot_S2000x512_S512x16_S2000x16_1_0_0_1_n_n.rhsNonContracting by decide)]
  rfl

/-- The centre row of point `r`, coordinate `d`: the table's rows mixed by the point's indicator. -/
theorem ctrV_apply (x1 x2 : Vec Ideal S2000x1 .i32) (x3 : Vec Ideal S512x16 .f32) (r : Fin 2000) (d : Fin 16) :
    ctrV x1 x2 x3 (ix2 r d) = mix (blkSeg x1 x2 r) (tableOf x3) d := by
  unfold ctrV mix tableOf
  refine (Ideal.matmul_constant_zero_apply dot_S2000x512_S512x16_S2000x16_1_0_0_1_n_n none _ _ (ix2 r d)).trans ?_
  rw [← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have el : dot_S2000x512_S512x16_S2000x16_1_0_0_1_n_n.lhsIdx (ix2 r d) ((contrEquiv1 dot_S2000x512_S512x16_S2000x16_1_0_0_1_n_n 512 rfl rfl).symm k) = ix2 r k :=
    funext fun a => Fin.ext (by
      match a with
      | ⟨0, _⟩ => exact lhs_ctr_0 _ _
      | ⟨1, _⟩ => exact (lhs_ctr_1 _ _).trans hk)
  have er : dot_S2000x512_S512x16_S2000x16_1_0_0_1_n_n.rhsIdx (ix2 r d) ((contrEquiv1 dot_S2000x512_S512x16_S2000x16_1_0_0_1_n_n 512 rfl rfl).symm k) = ix2 k d :=
    funext fun a => Fin.ext (by
      match a with
      | ⟨0, _⟩ => exact (rhs_ctr_0 _ _).trans hk
      | ⟨1, _⟩ => exact rhs_ctr_1 _ _)
  rw [el, er]
  refine congrArg₂ (· * ·) ?_ ?_
  · exact (truncf_apply (ψ := .bf16) (hotV x1 x2) bitsLt_bf16_f32 (ix2 r k)).trans (hotV_apply x1 x2 r k)
  · refine (truncf_apply (ψ := .bf16) (shapeCast S512x16 x3 shapeCasts_S512x16_S512x16) bitsLt_bf16_f32 (ix2 k d)).trans ?_
    rw [shapeCast_self]

/-- The distance of point `r`'s unit row from its centre row, coordinate `k`. -/
theorem absdiff_apply (x0 : Vec Ideal S2000x16 .f32) (x1 x2 : Vec Ideal S2000x1 .i32) (x3 : Vec Ideal S512x16 .f32) (r : Fin 2000) (k : Fin 16) :
    absf (subf (ctrV x1 x2 x3) (unitV x0)) (reduces_S2000x16_S2000.lift (ix1 r) k)
      = max (mix (blkSeg x1 x2 r) (tableOf x3) k - unitRow (blkRow x0 r) k) (-(mix (blkSeg x1 x2 r) (tableOf x3) k - unitRow (blkRow x0 r) k)) := by
  rw [lift_cols r k]
  show FloatOps.absf (F := Ideal) (subf (ctrV x1 x2 x3) (unitV x0) (ix2 r k)) = _
  rw [Ideal.absf_def, subf_apply, ctrV_apply, unitV_apply]

/-- The hinge of point `r`. -/
theorem marginV_apply (x0 : Vec Ideal S2000x16 .f32) (x1 x2 : Vec Ideal S2000x1 .i32) (x3 : Vec Ideal S512x16 .f32) (r : Fin 2000) :
    marginV x0 x1 x2 x3 (ix2 r 0)
      = max ((∑ d : Fin 16, max (mix (blkSeg x1 x2 r) (tableOf x3) d - unitRow (blkRow x0 r) d) (-(mix (blkSeg x1 x2 r) (tableOf x3) d - unitRow (blkRow x0 r) d)))
          - Ideal.ofBits .f32 0x3F000000#32) (Ideal.ofBits .f32 0x00000000#32) := by
  unfold marginV
  refine (maximumf_apply _ _ _).trans ?_
  refine congrArg₂ max ?_ rfl
  refine (subf_apply _ _ _).trans ?_
  refine congrArg₂ (· - ·) ?_ rfl
  refine (shapeCast_a_a1_apply _ _ r 0).trans ?_
  refine (Ideal.multiReduction_add_single _ _ reduces_S2000x16_S2000 (.inl rfl) rfl (ix1 r)).trans ?_
  exact Finset.sum_congr rfl fun k _ => absdiff_apply x0 x1 x2 x3 r k

/-- The body's product at an index: the indicator of the point's segment times the point's squared hinge. -/
theorem k1_pay3_apply (x0 : Vec Ideal S2000x16 .f32) (x1 x2 : Vec Ideal S2000x1 .i32) (x3 : Vec Ideal S512x16 .f32) (r : Fin 2000) (s : Fin 512) :
    k1_pay3 (F := Ideal) x0 x1 x2 x3 (ix2 r s)
      = hot (blkSeg x1 x2 r) s * hinge (unitRow (blkRow x0 r)) (mix (blkSeg x1 x2 r) (tableOf x3)) := by
  rw [k1_pay3_eq]
  refine (mulf_apply _ _ _).trans ?_
  refine congrArg₂ (· * ·) (hotV_apply x1 x2 r s) ?_
  refine (broadcastTo_a1_ab_apply _ _ r s).trans ?_
  refine (mulf_apply _ _ _).trans ?_
  rw [marginV_apply]
  rfl

/-! ## The two cases' accumulators at an entry -/

/-- The accumulator after a half's first point: per segment, the block's sum of squared hinges. -/
theorem out1_A_4_apply (c : Dev nD) (i : grid1.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S512x16 .f32) (harg5 : arg5.IsWhole) (arg6 : Memref sig .tc .vmem S1x1x512 .f32) (harg6 : arg6.IsWhole) (hc0 : cond1_0 i)
    (x0 : Vec Ideal S2000x16 .f32) (x1 : Vec Ideal S2000x1 .i32) (x2 : Vec Ideal S2000x1 .i32) (x3 : Vec Ideal S512x16 .f32) (s : Fin 512) :
    out1_A_4 (F := Ideal) c i arg2 harg2 arg3 harg3 arg4 harg4 arg5 harg5 arg6 harg6 hc0 x0 x1 x2 x3 (ix3 0 0 s)
      = ∑ r : Fin 2000, hot (blkSeg x1 x2 r) s * hinge (unitRow (blkRow x0 r)) (mix (blkSeg x1 x2 r) (tableOf x3)) := by
  refine (congrFun (out1_A_4_eq (F := Ideal) c i arg2 harg2 arg3 harg3 arg4 harg4 arg5 harg5 arg6 harg6 hc0 x0 x1 x2 x3) (ix3 0 0 s)).trans ?_
  refine (k1_pay1_apply (k1_pay3 (F := Ideal) x0 x1 x2 x3) (k1_pay2 (F := Ideal)) s).trans ?_
  rw [k1_pay2_apply, zero_add]
  exact Finset.sum_congr rfl fun r _ => k1_pay3_apply x0 x1 x2 x3 r s

/-- The accumulator after any other point: what the point before left plus the block's sum of squared hinges per segment. -/
theorem out1_B_4_apply (c : Dev nD) (i : grid1.Coords) (arg2 : Memref sig .tc .vmem S2000x16 .f32) (harg2 : arg2.IsWhole) (arg3 : Memref sig .tc .vmem S2000x1 .i32) (harg3 : arg3.IsWhole) (arg4 : Memref sig .tc .vmem S2000x1 .i32) (harg4 : arg4.IsWhole) (arg5 : Memref sig .tc .vmem S512x16 .f32) (harg5 : arg5.IsWhole) (arg6 : Memref sig .tc .vmem S1x1x512 .f32) (harg6 : arg6.IsWhole) (hc0 : ¬cond1_0 i)
    (x0 : Vec Ideal S2000x16 .f32) (x1 : Vec Ideal S2000x1 .i32) (x2 : Vec Ideal S2000x1 .i32) (x3 : Vec Ideal S512x16 .f32)
    (xo4 : Vec Ideal S1x1x512 .f32) (s : Fin 512) :
    out1_B_4 (F := Ideal) c i arg2 harg2 arg3 harg3 arg4 harg4 arg5 harg5 arg6 harg6 hc0 x0 x1 x2 x3 xo4 (ix3 0 0 s)
      = xo4 (ix3 0 0 s) + ∑ r : Fin 2000, hot (blkSeg x1 x2 r) s * hinge (unitRow (blkRow x0 r)) (mix (blkSeg x1 x2 r) (tableOf x3)) := by
  refine (congrFun (out1_B_4_eq (F := Ideal) c i arg2 harg2 arg3 harg3 arg4 harg4 arg5 harg5 arg6 harg6 hc0 x0 x1 x2 x3 xo4) (ix3 0 0 s)).trans ?_
  refine (k1_pay1_apply (k1_pay3 (F := Ideal) x0 x1 x2 x3) xo4 s).trans ?_
  refine congrArg (xo4 (ix3 0 0 s) + ·) ?_
  exact Finset.sum_congr rfl fun r _ => k1_pay3_apply x0 x1 x2 x3 r s

end Cert.KernelIdeal.Body1

end
-- ==== Proof.KRegion1.lean ====
/-
  The second kernel's result array, entry by entry, for any contents `V` of the buffers it is entered with.

  As in the first kernel the output block is indexed by the half alone and carried across the half's five hundred points:
  entry (p, 0, s) of the result is half `p`'s share of the sum, over the points of segment s, of the squared hinge between
  the point's unit row and the centre row its segment word selects from the table the region is entered with.
-/
import proofs.«419743_j24764781428790_1_alg».proof.Proof.Gen.KernelIdeal.Frame
import proofs.«419743_j24764781428790_1_alg».proof.Proof.KBody1
import proofs.«419743_j24764781428790_1_alg».proof.Proof.KView
import Idealize.ShloMosaic.Lib.Pipeline.Value

noncomputable section

namespace Cert.KernelIdeal.Region1

open Cert.KernelIdeal Cert.KernelIdeal.Gen Cert.KernelIdeal.View Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps of the five windows, decided once over the grid -/

/-- At point t the three streamed windows are at block row t, the table and the trailing axes at 0, and the
    result window at the half t / 500. -/
theorem idx_facts : ∀ t : Fin cfg1.N,
    win1_0.index t 0 = t.val ∧ win1_0.index t 1 = 0 ∧ win1_1.index t 0 = t.val ∧ win1_1.index t 1 = 0
    ∧ win1_2.index t 0 = t.val ∧ win1_2.index t 1 = 0 ∧ win1_3.index t 0 = 0 ∧ win1_3.index t 1 = 0
    ∧ win1_4.index t 0 = t.val / 500 ∧ win1_4.index t 1 = 0 ∧ win1_4.index t 2 = 0 :=
  (by decide +kernel : ∀ t : Fin grid1.N,
    win1_0.index t 0 = t.val ∧ win1_0.index t 1 = 0 ∧ win1_1.index t 0 = t.val ∧ win1_1.index t 1 = 0
    ∧ win1_2.index t 0 = t.val ∧ win1_2.index t 1 = 0 ∧ win1_3.index t 0 = 0 ∧ win1_3.index t 1 = 0
    ∧ win1_4.index t 0 = t.val / 500 ∧ win1_4.index t 1 = 0 ∧ win1_4.index t 2 = 0)

theorem N_eq : cfg1.N = 1000 := N_1

/-! ## The blocks, named at their literal types -/

/-- The block of point rows at point t. -/
abbrev xb0 (c : Dev nD) (t : Fin cfg1.N) : Vec Ideal S2000x16 .f32 := iblk1 V c 0 t
/-- The block of label words at point t. -/
abbrev xb1 (c : Dev nD) (t : Fin cfg1.N) : Vec Ideal S2000x1 .i32 := iblk1 V c 1 t
/-- The block of subbatch words at point t. -/
abbrev xb2 (c : Dev nD) (t : Fin cfg1.N) : Vec Ideal S2000x1 .i32 := iblk1 V c 2 t
/-- The table block at point t. -/
abbrev xb3 (c : Dev nD) (t : Fin cfg1.N) : Vec Ideal S512x16 .f32 := iblk1 V c 3 t

/-- Row r of the block of point t is row 2000 t + r of the point cloud. -/
theorem xb0_apply (c : Dev nD) (t : Fin cfg1.N) (r : Fin 2000) (k : Fin 16) (h : t.val * 2000 + r.val < 2000000) :
    xb0 V c t (ix2 r k) = (V c main_arg0 : S2000000x16.Idx → EReal) (ix2 ⟨t.val * 2000 + r.val, h⟩ k) := by
  unfold xb0 iblk1
  rw [View.read_apply]
  show V c main_arg0 _ = V c main_arg0 _
  congr 1
  funext a
  apply Fin.ext
  match a with
  | ⟨0, _⟩ => show win1_0.index t 0 * 2000 + 1 * r.val = t.val * 2000 + r.val; rw [(idx_facts t).1]; omega
  | ⟨1, _⟩ => show win1_0.index t 1 * 16 + 1 * k.val = k.val; rw [(idx_facts t).2.1]; omega

/-- Entry r of the block of label words of point t is entry 2000 t + r of the label array. -/
theorem xb1_apply (c : Dev nD) (t : Fin cfg1.N) (r : Fin 2000) (h : t.val * 2000 + r.val < 2000000) :
    xb1 V c t (ix2 r 0) = (V c main_v0 : S2000000x1.Idx → BitVec 32) (ix2 ⟨t.val * 2000 + r.val, h⟩ 0) := by
  unfold xb1 iblk1
  rw [View.read_apply]
  show V c main_v0 _ = V c main_v0 _
  congr 1
  funext a
  apply Fin.ext
  match a with
  | ⟨0, _⟩ => show win1_1.index t 0 * 2000 + 1 * r.val = t.val * 2000 + r.val; rw [(idx_facts t).2.2.1]; omega
  | ⟨1, _⟩ => show win1_1.index t 1 * 1 + 1 * 0 = 0; rw [(idx_facts t).2.2.2.1]

/-- Entry r of the block of subbatch words of point t is entry 2000 t + r of the subbatch array. -/
theorem xb2_apply (c : Dev nD) (t : Fin cfg1.N) (r : Fin 2000) (h : t.val * 2000 + r.val < 2000000) :
    xb2 V c t (ix2 r 0) = (V c main_v1 : S2000000x1.Idx → BitVec 32) (ix2 ⟨t.val * 2000 + r.val, h⟩ 0) := by
  unfold xb2 iblk1
  rw [View.read_apply]
  show V c main_v1 _ = V c main_v1 _
  congr 1
  funext a
  apply Fin.ext
  match a with
  | ⟨0, _⟩ => show win1_2.index t 0 * 2000 + 1 * r.val = t.val * 2000 + r.val; rw [(idx_facts t).2.2.2.2.1]; omega
  | ⟨1, _⟩ => show win1_2.index t 1 * 1 + 1 * 0 = 0; rw [(idx_facts t).2.2.2.2.2.1]

/-- The table block is the whole table at every point. -/
theorem xb3_apply (c : Dev nD) (t : Fin cfg1.N) (q : Fin 512) (d : Fin 16) :
    xb3 V c t (ix2 q d) = (V c main_v8 : S512x16.Idx → EReal) (ix2 q d) := by
  unfold xb3 iblk1
  rw [View.read_apply]
  show V c main_v8 _ = V c main_v8 _
  congr 1
  funext a
  apply Fin.ext
  match a with
  | ⟨0, _⟩ => show win1_3.index t 0 * 512 + 1 * q.val = q.val; rw [(idx_facts t).2.2.2.2.2.2.1]; omega
  | ⟨1, _⟩ => show win1_3.index t 1 * 16 + 1 * d.val = d.val; rw [(idx_facts t).2.2.2.2.2.2.2.1]; omega

/-- A block's row is the point cloud's row. -/
theorem blkRow_xb0 (c : Dev nD) (t : Fin cfg1.N) (r : Fin 2000) : blkRow (xb0 V c t) r = rowV V c (t.val * 2000 + r.val) := by
  have hN : t.val < 1000 := lt_of_lt_of_eq t.isLt N_eq
  have h : t.val * 2000 + r.val < 2000000 := by have := r.isLt; omega
  funext k
  unfold blkRow rowV rowsOf
  rw [dif_pos h]
  exact xb0_apply V c t r k h

/-- A block's segment word is the point's segment word. -/
theorem blkSeg_xb (c : Dev nD) (t : Fin cfg1.N) (r : Fin 2000) : blkSeg (xb1 V c t) (xb2 V c t) r = segV V c (t.val * 2000 + r.val) := by
  have hN : t.val < 1000 := lt_of_lt_of_eq t.isLt N_eq
  have h : t.val * 2000 + r.val < 2000000 := by have := r.isLt; omega
  unfold blkSeg segV segOf2
  rw [dif_pos h, xb1_apply V c t r h, xb2_apply V c t r h]

/-- The table block is the centre table. -/
theorem tableOf_xb3 (c : Dev nD) (t : Fin cfg1.N) : tableOf (xb3 V c t) = tblV V c := by
  funext q d
  unfold tableOf tblV tableOf
  exact xb3_apply V c t q d

/-! ## The fold over a half's points -/

/-- The term of point n for segment s: its indicator times the squared hinge between its unit row and the centre
    row its word selects. -/
abbrev term (c : Dev nD) (s : Fin 512) : ℕ → EReal :=
  fun n => hot (segV V c n) s * hinge (unitRow (rowV V c n)) (mix (segV V c n) (tblV V c))

/-- The contribution of the block of two thousand points from point 2000 T. -/
def blkSum (c : Dev nD) (s : Fin 512) (T : ℕ) : EReal := ∑ r : Fin 2000, term V c s (T * 2000 + r.val)

/-- The sum the body forms over the rows of the block of point t is that block's contribution. -/
theorem contrib_eq (c : Dev nD) (t : Fin cfg1.N) (s : Fin 512) :
    (∑ r : Fin 2000, hot (blkSeg (xb1 V c t) (xb2 V c t) r) s
        * hinge (unitRow (blkRow (xb0 V c t) r)) (mix (blkSeg (xb1 V c t) (xb2 V c t) r) (tableOf (xb3 V c t))))
      = blkSum V c s t.val := by
  unfold blkSum
  refine Finset.sum_congr rfl fun r _ => ?_
  rw [blkSeg_xb, blkRow_xb0, tableOf_xb3]

/-- At a half's first point the accumulator is set to the block's contribution. -/
theorem outs_A (c : Dev nD) (s : Fin 512) (t : Fin cfg1.N) (h0 : t.val % 500 = 0) :
    outsAt1 V c t.val t.isLt (ix3 0 0 s) = blkSum V c s t.val := by
  refine (congrFun (outsAt1_A V c t h0) (ix3 0 0 s)).trans ?_
  exact (Body1.out1_A_4_apply c (grid1.coords t) (ms1_0 t) (hs1_0 t) (ms1_1 t) (hs1_1 t) (ms1_2 t) (hs1_2 t) (ms1_3 t) (hs1_3 t)
    (ms1_4 t) (hs1_4 t) ((hcond1_0 t).mpr h0) (xb0 V c t) (xb1 V c t) (xb2 V c t) (xb3 V c t) s).trans (contrib_eq V c t s)

/-- At every other point the block's contribution is added to what the point before left. -/
theorem outs_B (c : Dev nD) (s : Fin 512) (t : Fin cfg1.N) (h0 : ¬t.val % 500 = 0) :
    outsAt1 V c t.val t.isLt (ix3 0 0 s)
      = outsAt1 V c (t.val - 1) (Nat.lt_of_le_of_lt (Nat.sub_le _ _) t.isLt) (ix3 0 0 s) + blkSum V c s t.val := by
  refine (congrFun (outsAt1_B V c t h0) (ix3 0 0 s)).trans ?_
  exact (Body1.out1_B_4_apply c (grid1.coords t) (ms1_0 t) (hs1_0 t) (ms1_1 t) (hs1_1 t) (ms1_2 t) (hs1_2 t) (ms1_3 t) (hs1_3 t)
    (ms1_4 t) (hs1_4 t) (fun h => h0 ((hcond1_0 t).mp h)) (xb0 V c t) (xb1 V c t) (xb2 V c t) (xb3 V c t)
    (outsAt1 V c (t.val - 1) (Nat.lt_of_le_of_lt (Nat.sub_le _ _) t.isLt)) s).trans
    (congrArg (fun z => outsAt1 V c (t.val - 1) (Nat.lt_of_le_of_lt (Nat.sub_le _ _) t.isLt) (ix3 0 0 s) + z) (contrib_eq V c t s))

/-- After point n the accumulator holds the contributions of the blocks of its half up to n. -/
theorem outs_eq (c : Dev nD) (s : Fin 512) : ∀ (n : ℕ) (h : n < cfg1.N),
    outsAt1 V c n h (ix3 0 0 s) = ∑ j ∈ Finset.range (n % 500 + 1), blkSum V c s (500 * (n / 500) + j)
  | 0, h => by
    refine (outs_A V c s ⟨0, h⟩ rfl).trans ?_
    show blkSum V c s 0 = _
    rw [Nat.zero_mod, Nat.zero_div, Finset.sum_range_one]
  | m + 1, h => by
    by_cases h0 : (m + 1) % 500 = 0
    · refine (outs_A V c s ⟨m + 1, h⟩ h0).trans ?_
      show blkSum V c s (m + 1) = _
      have e : 500 * ((m + 1) / 500) + 0 = m + 1 := by omega
      rw [h0, Finset.sum_range_one, e]
    · refine (outs_B V c s ⟨m + 1, h⟩ h0).trans ?_
      show outsAt1 V c m _ (ix3 0 0 s) + blkSum V c s (m + 1) = _
      rw [outs_eq c s m]
      have e1 : (m + 1) % 500 = m % 500 + 1 := by omega
      have e2 : (m + 1) / 500 = m / 500 := by omega
      have e3 : 500 * (m / 500) + (m % 500 + 1) = m + 1 := by omega
      rw [e1, e2, Finset.sum_range_succ _ (m % 500 + 1), e3]

/-! ## From the flushed blocks to the array -/

/-- The result array as one function of the index: half p's share of segment s's sum at (p, 0, s). -/
def G (c : Dev nD) : S2x1x512.Idx → EReal := fun i => half (term V c (i 2)) (i 0).val

/-- At a half's last point the accumulator holds the half's share. -/
theorem outs_last (c : Dev nD) (s : Fin 512) (t : Fin cfg1.N) (h499 : t.val % 500 = 499) :
    outsAt1 V c t.val t.isLt (ix3 0 0 s) = half (term V c s) (t.val / 500) := by
  rw [outs_eq V c s t.val t.isLt, h499]
  rfl

/-- What the accumulator holds at a half's last point, at the index of its block whose last coordinate is s, is the
    entry of the array at the half's number and s. -/
theorem outs_last_at (c : Dev nD) (t : Fin cfg1.N) (h499 : t.val % 500 = 499) (y : S1x1x512.Idx) (i : S2x1x512.Idx)
    (s : Fin 512) (hy2 : (y 2).val = s.val) (hi0 : (i 0).val = t.val / 500) (hi2 : (i 2).val = s.val) :
    outsAt1 V c t.val t.isLt y = G V c i := by
  have hy : y = ix3 0 0 s := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext hy2
  have hs : (i 2 : Fin 512) = s := Fin.ext hi2
  rw [hy, outs_last V c s t h499]
  unfold G
  rw [hi0, hs]

/-- The write-back at a half's last point writes its block of the result array. -/
theorem flushed_eq (c : Dev nD) (t : Fin cfg1.N) (hf : (cfg1.win 4).flush t = true) :
    (dat1 V c).flushed 4 t = ((cfg1.win 4).blk t).view.read (Elt Ideal) (G V c) := by
  have h499 : t.val % 500 = 499 := (flush1_4 t).mp hf
  show (cfg1.win 4).cut (grid1.coords t) ((dat1 V c).after 4 t) = _
  rw [after1_4]
  funext y
  rw [View.read_apply]
  have h0 : (y 0).val < 1 := (y 0).isLt
  have h2 : (y 2).val < 512 := (y 2).isLt
  refine outs_last_at V c t h499 _ _ ⟨(y 2).val, h2⟩ rfl ?_ ?_
  · show win1_4.index t 0 * 1 + 1 * (y 0).val = t.val / 500
    rw [(idx_facts t).2.2.2.2.2.2.2.2.1]; omega
  · show win1_4.index t 2 * 512 + 1 * (y 2).val = (y 2).val
    rw [(idx_facts t).2.2.2.2.2.2.2.2.2.2]; omega

/-- Every index of the result array lies in the block written back at its half's last point. -/
theorem cover (c : Dev nD) (i : S2x1x512.Idx) :
    ∃ t : Fin cfg1.N, (cfg1.win 4).flush t = true ∧ i ∈ ((cfg1.win 4).blk t).view.set := by
  have h0 : (i 0).val < 2 := (i 0).isLt
  have h1 : (i 1).val < 1 := (i 1).isLt
  have h2 : (i 2).val < 512 := (i 2).isLt
  have hlt : 500 * (i 0).val + 499 < cfg1.N := by rw [N_eq]; omega
  refine ⟨⟨500 * (i 0).val + 499, hlt⟩, (flush1_4 _).mpr (by dsimp only; omega), ?_⟩
  show i ∈ ((View.whole main_v9).slice (win1_4.rect ⟨500 * (i 0).val + 499, hlt⟩)).set
  rw [View.set_slice_whole, Rect.mem_set_unit]
  intro a
  have hf := idx_facts ⟨500 * (i 0).val + 499, hlt⟩
  match a with
  | ⟨0, _⟩ =>
    show win1_4.index ⟨500 * (i 0).val + 499, hlt⟩ 0 * 1 ≤ (i 0).val ∧ (i 0).val < win1_4.index ⟨500 * (i 0).val + 499, hlt⟩ 0 * 1 + 1
    rw [hf.2.2.2.2.2.2.2.2.1]; dsimp only; omega
  | ⟨1, _⟩ =>
    show win1_4.index ⟨500 * (i 0).val + 499, hlt⟩ 1 * 1 ≤ (i 1).val ∧ (i 1).val < win1_4.index ⟨500 * (i 0).val + 499, hlt⟩ 1 * 1 + 1
    rw [hf.2.2.2.2.2.2.2.2.2.1]; omega
  | ⟨2, _⟩ =>
    show win1_4.index ⟨500 * (i 0).val + 499, hlt⟩ 2 * 512 ≤ (i 2).val ∧ (i 2).val < win1_4.index ⟨500 * (i 0).val + 499, hlt⟩ 2 * 512 + 512
    rw [hf.2.2.2.2.2.2.2.2.2.2]; omega

/-- The result array after the region is that function. -/
theorem arr4_eq (c : Dev nD) : (dat1 V c).arrAt 4 cfg1.N = G V c :=
  (dat1 V c).arrAt_eq_of_cover 4 (G V c) (flushed_eq V c) (cover c)

/-- Entry (p, 0, s) of the result array after the region: half `p`'s share of segment s's pull term. -/
theorem arr4_apply (c : Dev nD) (p : Fin 2) (s : Fin 512) :
    (dat1 V c).arrAt 4 cfg1.N (ix3 p 0 s)
      = half (fun n => hot (segV V c n) s * hinge (unitRow (rowV V c n)) (mix (segV V c n) (tblV V c))) p.val := by
  rw [arr4_eq V c]
  rfl

end Cert.KernelIdeal.Region1

end
-- ==== Proof.KHost.lean ====
/-
  The host stretches between the kernel's regions: the per-segment counts, centres and pull terms as the program holds them.

  Before the first region the two word arrays are reshaped to columns; after it the two halves' shares are added (a host
  sum over the leading axis of extent two) and the sums of unit rows divided by the counts: the centres. The second region
  is entered with the point cloud and the word columns unchanged and with those centres; after it the two halves' shares
  of the pull terms are added. By `tot_eq_halves` the two shares make the sum over all points.
-/
import proofs.«419743_j24764781428790_1_alg».proof.Proof.Gen.KernelIdeal.Frame
import proofs.«419743_j24764781428790_1_alg».proof.Proof.KRegion0
import proofs.«419743_j24764781428790_1_alg».proof.Proof.KRegion1
import proofs.«419743_j24764781428790_1_alg».proof.Proof.KView
import Idealize.ShloMosaic.Lib.Pipeline.Value
import Idealize.ShloMosaic.Lib.StableHlo.Run
import Idealize.ShloMosaic.PureOps.Ideal.Laws

noncomputable section

namespace Cert.KernelIdeal.Host

open Cert.KernelIdeal Cert.KernelIdeal.Gen Cert.KernelIdeal.View Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Layout operations of the host stretches read at an index -/

/-- A vector of two million entries reshaped to a column, read at row `n`: the vector's entry `n` (both have row-major
    position `n`). -/
theorem cast_col {α : Type} (x : (⟨1, ![2000000]⟩ : Shape).Idx → α)
    (h : (⟨1, ![2000000]⟩ : Shape).ShapeCasts ⟨2, ![2000000, 1]⟩) (n : Fin 2000000) :
    shapeCast ⟨2, ![2000000, 1]⟩ x h (ix2 n 0) = x (ix1 n) := by
  refine shapeCast_apply x h _ _ ?_
  rw [Shape.rowMajor_val_one, Shape.rowMajor_val_two]
  show n.val = n.val * 1 + 0
  omega

/-- The host sum of a [2, 1, 512] array over its leading axis from zero, flattened to [512]: entry `s` is the two entries
    (0, 0, s) and (1, 0, s) added. -/
theorem sum2_row (x : (⟨3, ![2, 1, 512]⟩ : Shape).Idx → EReal) (s : Fin 512) :
    shapeCast S512 (Host.reduceAdd (F := Ideal) (φ := .f32) x (constant (F := Ideal) S_ .f32 0x00000000#32) reducesTo_S2x1x512_S1x512_d0 h_S_)
        shapeCasts_S1x512_S512 (ix1 s)
      = x (ix3 0 0 s) + x (ix3 1 0 s) := by
  have hr : S2x1x512.Reduces [0] S1x512 := by decide
  -- the index the sum inserts on the reduced axis
  have e : ∀ k : Fin 2, hr.lift (ix2 0 s) k = ix3 k 0 s := by
    intro k; funext a
    match a with
    | ⟨0, _⟩ => exact Fin.ext rfl
    | ⟨1, _⟩ => exact Fin.ext rfl
    | ⟨2, _⟩ => exact Fin.ext rfl
  refine (shapeCast_apply _ shapeCasts_S1x512_S512 (ix1 s) (ix2 0 s) ?_).trans ?_
  · rw [Shape.rowMajor_val_one, Shape.rowMajor_val_two]
    show 0 * 512 + s.val = s.val
    omega
  · show Ideal.hostReduceAdd reducesTo_S2x1x512_S1x512_d0 x (Ideal.ofBits .f32 0x00000000#32) (ix2 0 s) = _
    rw [Ideal.hostReduceAdd_single reducesTo_S2x1x512_S1x512_d0 hr x _ (ix2 0 s), Ideal.ofBits_zero_f32, zero_add]
    show ∑ k : Fin 2, _ = _
    rw [Fin.sum_univ_two, e 0, e 1]

/-- The host sum of a [2, 512, 16] array over its leading axis from zero: entry (s, d) is the two entries (0, s, d) and
    (1, s, d) added. -/
theorem sum2_tab (x : (⟨3, ![2, 512, 16]⟩ : Shape).Idx → EReal) (s : Fin 512) (d : Fin 16) :
    Host.reduceAdd (F := Ideal) (φ := .f32) x (constant (F := Ideal) S_ .f32 0x00000000#32) reducesTo_S2x512x16_S512x16_d0 h_S_ (ix2 s d)
      = x (ix3 0 s d) + x (ix3 1 s d) := by
  have hr : S2x512x16.Reduces [0] S512x16 := by decide
  have e : ∀ k : Fin 2, hr.lift (ix2 s d) k = ix3 k s d := by
    intro k; funext a
    match a with
    | ⟨0, _⟩ => exact Fin.ext rfl
    | ⟨1, _⟩ => exact Fin.ext rfl
    | ⟨2, _⟩ => exact Fin.ext rfl
  show Ideal.hostReduceAdd reducesTo_S2x512x16_S512x16_d0 x (Ideal.ofBits .f32 0x00000000#32) (ix2 s d) = _
  rw [Ideal.hostReduceAdd_single reducesTo_S2x512x16_S512x16_d0 hr x _ (ix2 s d), Ideal.ofBits_zero_f32, zero_add]
  show ∑ k : Fin 2, _ = _
  rw [Fin.sum_univ_two, e 0, e 1]

/-- A [512] vector made a column and spread along rows of sixteen, read at (s, d): the vector's entry `s`. -/
theorem spread_col (y : (⟨1, ![512]⟩ : Shape).Idx → EReal) (s : Fin 512) (d : Fin 16) :
    broadcastInDim (α := EReal) S512x16 ![0, 1] bcast_S512x1_S512x16_0_1 (shapeCast S512x1 y shapeCasts_S512_S512x1) (ix2 s d)
      = y (ix1 s) := by
  refine (broadcastInDim_apply _ bcast_S512x1_S512x16_0_1 _ (ix2 s d) (ix2 s 0) ?_).trans ?_
  · intro a
    match a with
    | ⟨0, _⟩ => rfl
    | ⟨1, _⟩ => rfl
  · refine shapeCast_apply y shapeCasts_S512_S512x1 (ix2 s 0) (ix1 s) ?_
    rw [Shape.rowMajor_val_one, Shape.rowMajor_val_two]
    show s.val = s.val * 1 + 0
    omega

/-! ## The first region's entry: the point cloud as launched, the two word arrays as columns -/

theorem V1_arg0 (c : Dev nD) : V1 m ρ c main_arg0 = m ((c : Thread nD τ).loc main_arg0) := by
  show StableHlo.after hostOps0 _ (Proc.devRef .tc main_arg0) = _
  after_results

theorem V1_v0 (c : Dev nD) : (V1 m ρ c main_v0 : (⟨2, ![2000000, 1]⟩ : Shape).Idx → BitVec 32)
    = shapeCast ⟨2, ![2000000, 1]⟩ (m ((c : Thread nD τ).loc main_arg1) : (⟨1, ![2000000]⟩ : Shape).Idx → BitVec 32)
        shapeCasts_S2000000_S2000000x1 := by
  show StableHlo.after hostOps0 _ (Proc.devRef .tc main_v0) = _
  after_results
  rfl

theorem V1_v1 (c : Dev nD) : (V1 m ρ c main_v1 : (⟨2, ![2000000, 1]⟩ : Shape).Idx → BitVec 32)
    = shapeCast ⟨2, ![2000000, 1]⟩ (m ((c : Thread nD τ).loc main_arg2) : (⟨1, ![2000000]⟩ : Shape).Idx → BitVec 32)
        shapeCasts_S2000000_S2000000x1 := by
  show StableHlo.after hostOps0 _ (Proc.devRef .tc main_v1) = _
  after_results
  rfl

/-- The rows the first region finds are the launch rows. -/
theorem rowV1 (c : Dev nD) : rowV (V1 m ρ) c = rowsM m c := by
  unfold rowV rowsM
  rw [V1_arg0]

/-- The segment words the first region finds are the launch words: a column's row `n` is the vector's entry `n`. -/
theorem segV1 (c : Dev nD) : segV (V1 m ρ) c = segM m c := by
  funext n
  unfold segV segM segOf2 segOf wordsOf
  rw [V1_v0, V1_v1]
  by_cases h : n < 2000000
  · rw [dif_pos h, dif_pos h, dif_pos h, cast_col, cast_col]
  · rw [dif_neg h, dif_neg h, dif_neg h]
    rfl

/-! ## After the first region: the counts and the centres -/

/-- The counts' buffer is the flattened host sum of the first region's second result array. -/
theorem W3_v5 (c : Dev nD) : (W3 m ρ c (Proc.devRef .tc main_v5) : (⟨1, ![512]⟩ : Shape).Idx → EReal)
    = shapeCast S512 (Host.reduceAdd (F := Ideal) (φ := .f32)
          (W2 m ρ c (Proc.devRef .tc main_v2_1) : (⟨3, ![2, 1, 512]⟩ : Shape).Idx → EReal)
          (constant (F := Ideal) S_ .f32 0x00000000#32) reducesTo_S2x1x512_S1x512_d0 h_S_) shapeCasts_S1x512_S512 := by
  show StableHlo.after hostOps1 _ (Proc.devRef .tc main_v5) = _
  after_results
  rfl

/-- That sum at segment `s` is the number of the segment's points: the two halves' shares added. -/
theorem cnt_term (c : Dev nD) (s : Fin 512) :
    shapeCast S512 (Host.reduceAdd (F := Ideal) (φ := .f32)
          (W2 m ρ c (Proc.devRef .tc main_v2_1) : (⟨3, ![2, 1, 512]⟩ : Shape).Idx → EReal)
          (constant (F := Ideal) S_ .f32 0x00000000#32) reducesTo_S2x1x512_S1x512_d0 h_S_) shapeCasts_S1x512_S512 (ix1 s)
      = cnt (segM m c) s := by
  refine (sum2_row _ s).trans ?_
  have e4 : ∀ p : Fin 2, (W2 m ρ c (Proc.devRef .tc main_v2_1) : (⟨3, ![2, 1, 512]⟩ : Shape).Idx → EReal) (ix3 p 0 s)
      = half (fun n => hot (segM m c n) s) p.val := by
    intro p
    refine (congrFun (W2_arr m ρ c 4) (ix3 p 0 s)).trans ?_
    rw [Region0.arr4_apply (V1 m ρ) c p s, segV1]
  rw [e4 0, e4 1]
  unfold cnt
  rw [tot_eq_halves]
  rfl

/-- The counts the program holds after the first region and its host stretch: the number of points per segment. -/
theorem cnt_apply (c : Dev nD) (s : Fin 512) :
    W3 m ρ c (Proc.devRef .tc main_v5) (ix1 s) = cnt (segM m c) s :=
  (congrFun (W3_v5 m ρ c) (ix1 s)).trans (cnt_term m ρ c s)

/-- The centres' buffer is the host quotient of the summed first result array by the counts spread along rows. -/
theorem W3_v8 (c : Dev nD) : (W3 m ρ c (Proc.devRef .tc main_v8) : (⟨2, ![512, 16]⟩ : Shape).Idx → EReal)
    = Host.divf (F := Ideal) (φ := .f32)
        (Host.reduceAdd (F := Ideal) (φ := .f32)
          (W2 m ρ c (Proc.devRef .tc main_v2_0) : (⟨3, ![2, 512, 16]⟩ : Shape).Idx → EReal)
          (constant (F := Ideal) S_ .f32 0x00000000#32) reducesTo_S2x512x16_S512x16_d0 h_S_)
        (broadcastInDim (α := EReal) S512x16 ![0, 1] bcast_S512x1_S512x16_0_1
          (shapeCast S512x1
            (shapeCast S512 (Host.reduceAdd (F := Ideal) (φ := .f32)
              (W2 m ρ c (Proc.devRef .tc main_v2_1) : (⟨3, ![2, 1, 512]⟩ : Shape).Idx → EReal)
              (constant (F := Ideal) S_ .f32 0x00000000#32) reducesTo_S2x1x512_S1x512_d0 h_S_) shapeCasts_S1x512_S512)
            shapeCasts_S512_S512x1)) := by
  show StableHlo.after hostOps1 _ (Proc.devRef .tc main_v8) = _
  after_results
  rfl

/-- The summed first result array at (s, d) is the segment's sum of unit rows: the two halves' shares added. -/
theorem msum_term (c : Dev nD) (s : Fin 512) (d : Fin 16) :
    Host.reduceAdd (F := Ideal) (φ := .f32)
          (W2 m ρ c (Proc.devRef .tc main_v2_0) : (⟨3, ![2, 512, 16]⟩ : Shape).Idx → EReal)
          (constant (F := Ideal) S_ .f32 0x00000000#32) reducesTo_S2x512x16_S512x16_d0 h_S_ (ix2 s d)
      = msum (rowsM m c) (segM m c) s d := by
  refine (sum2_tab _ s d).trans ?_
  have e3 : ∀ p : Fin 2, (W2 m ρ c (Proc.devRef .tc main_v2_0) : (⟨3, ![2, 512, 16]⟩ : Shape).Idx → EReal) (ix3 p s d)
      = half (fun n => hot (segM m c n) s * unitRow (rowsM m c n) d) p.val := by
    intro p
    refine (congrFun (W2_arr m ρ c 3) (ix3 p s d)).trans ?_
    rw [Region0.arr3_apply (V1 m ρ) c p s d, segV1, rowV1]
  rw [e3 0, e3 1]
  unfold msum
  rw [tot_eq_halves]
  rfl

/-- The centres the program holds there: per segment, the sum of unit rows over the count. -/
theorem mu_apply (c : Dev nD) (s : Fin 512) (d : Fin 16) :
    W3 m ρ c (Proc.devRef .tc main_v8) (ix2 s d) = mu (rowsM m c) (segM m c) s d := by
  refine (congrFun (W3_v8 m ρ c) (ix2 s d)).trans ?_
  -- the host quotient is entrywise: numerator the summed rows, denominator the count spread along the row
  show Ideal.div _ _ = _
  rw [msum_term, spread_col, cnt_term]
  rfl

/-! ## The second region's entry: the point cloud and the word columns as the first region found them -/

/-- No operation of the second host stretch writes the point cloud, and the first region leaves an input's array as
    entered. -/
theorem V3_arg0 (c : Dev nD) : V3 m ρ c main_arg0 = V1 m ρ c main_arg0 :=
  calc W3 m ρ c (Proc.devRef .tc main_arg0)
    _ = W2 m ρ c (Proc.devRef .tc main_arg0) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W1 m ρ c (Proc.devRef .tc main_arg0) :=
          (W2_arr m ρ c 0).trans (((dat0 (V1 m ρ) c).arrAt_in 0 rfl _).trans (A_eq0 (V1 m ρ) c 0))

theorem V3_v0 (c : Dev nD) : V3 m ρ c main_v0 = V1 m ρ c main_v0 :=
  calc W3 m ρ c (Proc.devRef .tc main_v0)
    _ = W2 m ρ c (Proc.devRef .tc main_v0) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W1 m ρ c (Proc.devRef .tc main_v0) :=
          (W2_arr m ρ c 1).trans (((dat0 (V1 m ρ) c).arrAt_in 1 rfl _).trans (A_eq0 (V1 m ρ) c 1))

theorem V3_v1 (c : Dev nD) : V3 m ρ c main_v1 = V1 m ρ c main_v1 :=
  calc W3 m ρ c (Proc.devRef .tc main_v1)
    _ = W2 m ρ c (Proc.devRef .tc main_v1) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = W1 m ρ c (Proc.devRef .tc main_v1) :=
          (W2_arr m ρ c 2).trans (((dat0 (V1 m ρ) c).arrAt_in 2 rfl _).trans (A_eq0 (V1 m ρ) c 2))

/-- The rows the second region finds are the launch rows. -/
theorem rowV3 (c : Dev nD) : rowV (V3 m ρ) c = rowsM m c := by
  rw [← rowV1 m ρ c]
  unfold rowV
  rw [V3_arg0]

/-- The segment words the second region finds are the launch words. -/
theorem segV3 (c : Dev nD) : segV (V3 m ρ) c = segM m c := by
  rw [← segV1 m ρ c]
  unfold segV
  rw [V3_v0, V3_v1]

/-- The centre table the second region finds is the centres' buffer after the first host stretch. -/
theorem tblV3 (c : Dev nD) : tblV (V3 m ρ) c = tableOf (W3 m ρ c (Proc.devRef .tc main_v8)) := rfl

/-! ## After the second region: the pull terms -/

/-- The pull terms' buffer is the flattened host sum of the second region's result array. -/
theorem W5_v11 (c : Dev nD) : (W5 m ρ c (Proc.devRef .tc main_v11) : (⟨1, ![512]⟩ : Shape).Idx → EReal)
    = shapeCast S512 (Host.reduceAdd (F := Ideal) (φ := .f32)
          (W4 m ρ c (Proc.devRef .tc main_v9) : (⟨3, ![2, 1, 512]⟩ : Shape).Idx → EReal)
          (constant (F := Ideal) S_ .f32 0x00000000#32) reducesTo_S2x1x512_S1x512_d0 h_S_) shapeCasts_S1x512_S512 := by
  show StableHlo.after hostOps2 _ (Proc.devRef .tc main_v11) = _
  after_results
  rfl

/-- The pull terms the program holds after the second region and the first operations of its host stretch. -/
theorem pull_apply (c : Dev nD) (s : Fin 512) :
    W5 m ρ c (Proc.devRef .tc main_v11) (ix1 s)
      = pull (rowsM m c) (segM m c) (tableOf (W3 m ρ c (Proc.devRef .tc main_v8))) s := by
  refine (congrFun (W5_v11 m ρ c) (ix1 s)).trans ?_
  refine (sum2_row _ s).trans ?_
  have e4 : ∀ p : Fin 2, (W4 m ρ c (Proc.devRef .tc main_v9) : (⟨3, ![2, 1, 512]⟩ : Shape).Idx → EReal) (ix3 p 0 s)
      = half (fun n => hot (segM m c n) s
          * hinge (unitRow (rowsM m c n)) (mix (segM m c n) (tableOf (W3 m ρ c (Proc.devRef .tc main_v8))))) p.val := by
    intro p
    refine (congrFun (W4_arr m ρ c 4) (ix3 p 0 s)).trans ?_
    rw [Region1.arr4_apply (V3 m ρ) c p s, segV3, rowV3, tblV3]
  rw [e4 0, e4 1]
  unfold pull
  rw [tot_eq_halves]
  rfl

end Cert.KernelIdeal.Host

end
-- ==== Proof.Tail.lean ====
/-
  The last stretch both programs share, as one function of the per-segment pull terms, counts and centres.

  The pull terms are divided by sixty-four times the counts and summed over each subbatch's sixty-four labels; the centres of
  a subbatch are compared pairwise in L1 distance, the squared hinge `max(3 - dist, 0)²` taken off the diagonal, summed and
  divided by 64 · 63; the two per-subbatch terms are added, divided by eight and summed.
-/
import Idealize.ShloMosaic.PureOps.Ideal
import Idealize.ShloMosaic.PureOps.Ideal.Laws
import Idealize.ShloMosaic.Lib.ValueIdx
import Idealize.ShloMosaic.Lib.Pipeline.Value

noncomputable section

namespace Cert.Tail

open Idealize.ShloMosaic Idealize.ShloMosaic.ValueIdx

/-! ## The shapes of the stretch, and the facts its layout operations ask for -/

abbrev S_ : Shape := ⟨0, ![]⟩
abbrev S8 : Shape := ⟨1, ![8]⟩
abbrev S512 : Shape := ⟨1, ![512]⟩
abbrev S8x64 : Shape := ⟨2, ![8, 64]⟩
abbrev S512x16 : Shape := ⟨2, ![512, 16]⟩
abbrev S64x64 : Shape := ⟨2, ![64, 64]⟩
abbrev S8x64x16 : Shape := ⟨3, ![8, 64, 16]⟩
abbrev S8x64x64 : Shape := ⟨3, ![8, 64, 64]⟩
abbrev S1x64x64 : Shape := ⟨3, ![1, 64, 64]⟩
abbrev S8x64x1x16 : Shape := ⟨4, ![8, 64, 1, 16]⟩
abbrev S8x1x64x16 : Shape := ⟨4, ![8, 1, 64, 16]⟩
abbrev S8x64x64x16 : Shape := ⟨4, ![8, 64, 64, 16]⟩

theorem h_S_ : 0 < S_.numel := by decide
theorem shapeCasts_S512_S8x64 : S512.ShapeCasts S8x64 := by decide
theorem bcast_S_S8x64 : S_.BroadcastsInDim S8x64 (![] : Fin 0 → Fin S8x64.rank) := by decide
theorem reducesTo_S8x64_S8_d1 : S8x64.ReducesTo [1] S8 := by decide
theorem shapeCasts_S512x16_S8x64x16 : S512x16.ShapeCasts S8x64x16 := by decide
theorem bcast_S8x64x16_S8x64x1x16_0_1_3 : S8x64x16.BroadcastsInDim S8x64x1x16 (![0, 1, 3] : Fin 3 → Fin S8x64x1x16.rank) := by decide
theorem bcast_S8x64x16_S8x1x64x16_0_2_3 : S8x64x16.BroadcastsInDim S8x1x64x16 (![0, 2, 3] : Fin 3 → Fin S8x1x64x16.rank) := by decide
theorem bcast_S8x64x1x16_S8x64x64x16_0_1_2_3 : S8x64x1x16.BroadcastsInDim S8x64x64x16 (![0, 1, 2, 3] : Fin 4 → Fin S8x64x64x16.rank) := by decide
theorem bcast_S8x1x64x16_S8x64x64x16_0_1_2_3 : S8x1x64x16.BroadcastsInDim S8x64x64x16 (![0, 1, 2, 3] : Fin 4 → Fin S8x64x64x16.rank) := by decide
theorem reducesTo_S8x64x64x16_S8x64x64_d3 : S8x64x64x16.ReducesTo [3] S8x64x64 := by decide
theorem bcast_S_S8x64x64 : S_.BroadcastsInDim S8x64x64 (![] : Fin 0 → Fin S8x64x64.rank) := by decide
theorem bcast_S_S64x64 : S_.BroadcastsInDim S64x64 (![] : Fin 0 → Fin S64x64.rank) := by decide
theorem bcast_S64x64_S1x64x64_1_2 : S64x64.BroadcastsInDim S1x64x64 (![1, 2] : Fin 2 → Fin S1x64x64.rank) := by decide
theorem bcast_S1x64x64_S8x64x64_0_1_2 : S1x64x64.BroadcastsInDim S8x64x64 (![0, 1, 2] : Fin 3 → Fin S8x64x64.rank) := by decide
theorem reducesTo_S8x64x64_S8_d1_2 : S8x64x64.ReducesTo [1, 2] S8 := by decide
theorem bcast_S_S8 : S_.BroadcastsInDim S8 (![] : Fin 0 → Fin S8.rank) := by decide
theorem reducesTo_S8_S_d0 : S8.ReducesTo [0] S_ := by decide

/-! ## The pull term of each subbatch -/

/-- Per subbatch: the sum over its sixty-four labels of the pull term over sixty-four times the count. -/
def pullB (pl cn : FVec Ideal S512 .f32) : FVec Ideal S8 .f32 :=
  Host.reduceAdd (F := Ideal)
    (Host.divf (F := Ideal) (shapeCast S8x64 pl shapeCasts_S512_S8x64)
      (mulf (F := Ideal) (broadcastInDim S8x64 ![] bcast_S_S8x64 (constant (F := Ideal) S_ .f32 0x42800000#32))
        (shapeCast S8x64 cn shapeCasts_S512_S8x64)))
    (constant (F := Ideal) S_ .f32 0x00000000#32) reducesTo_S8x64_S8_d1 h_S_

/-! ## The push term of each subbatch -/

/-- The L1 distance between every two centres of a subbatch. -/
def dist (mu : FVec Ideal S512x16 .f32) : FVec Ideal S8x64x64 .f32 :=
  Host.reduceAdd (F := Ideal)
    (Host.absf (F := Ideal)
      (subf (F := Ideal)
        (broadcastInDim S8x64x64x16 ![0, 1, 2, 3] bcast_S8x64x1x16_S8x64x64x16_0_1_2_3
          (broadcastInDim S8x64x1x16 ![0, 1, 3] bcast_S8x64x16_S8x64x1x16_0_1_3
            (shapeCast S8x64x16 mu shapeCasts_S512x16_S8x64x16)))
        (broadcastInDim S8x64x64x16 ![0, 1, 2, 3] bcast_S8x1x64x16_S8x64x64x16_0_1_2_3
          (broadcastInDim S8x1x64x16 ![0, 2, 3] bcast_S8x64x16_S8x1x64x16_0_2_3
            (shapeCast S8x64x16 mu shapeCasts_S512x16_S8x64x16)))))
    (constant (F := Ideal) S_ .f32 0x00000000#32) reducesTo_S8x64x64x16_S8x64x64_d3 h_S_

/-- The hinge `max(3 - dist, 0)` of every pair of centres. -/
def hingeP (mu : FVec Ideal S512x16 .f32) : FVec Ideal S8x64x64 .f32 :=
  maximumf (F := Ideal)
    (subf (F := Ideal) (broadcastInDim S8x64x64 ![] bcast_S_S8x64x64 (constant (F := Ideal) S_ .f32 0x40400000#32)) (dist mu))
    (broadcastInDim S8x64x64 ![] bcast_S_S8x64x64 (constant (F := Ideal) S_ .f32 0x00000000#32))

/-- One off the diagonal, zero on it, for every subbatch. -/
def offDiag : FVec Ideal S8x64x64 .f32 :=
  broadcastInDim S8x64x64 ![0, 1, 2] bcast_S1x64x64_S8x64x64_0_1_2
    (broadcastInDim S1x64x64 ![1, 2] bcast_S64x64_S1x64x64_1_2
      (subf (F := Ideal) (broadcastInDim S64x64 ![] bcast_S_S64x64 (constant (F := Ideal) S_ .f32 0x3F800000#32))
        (uitofp (F := Ideal) .f32
          (cmpi .eq
            (addi (iotaInDim S64x64 32 0) (broadcastInDim S64x64 ![] bcast_S_S64x64 (constantI S_ 32 0#32)))
            (iotaInDim S64x64 32 1)))))

/-- Per subbatch: the squared hinges of its pairs of distinct centres, summed and divided by 64 · 63. -/
def pushB (mu : FVec Ideal S512x16 .f32) : FVec Ideal S8 .f32 :=
  Host.divf (F := Ideal)
    (Host.reduceAdd (F := Ideal) (mulf (F := Ideal) (mulf (F := Ideal) (hingeP mu) (hingeP mu)) offDiag)
      (constant (F := Ideal) S_ .f32 0x00000000#32) reducesTo_S8x64x64_S8_d1_2 h_S_)
    (broadcastInDim S8 ![] bcast_S_S8 (constant (F := Ideal) S_ .f32 0x457C0000#32))

/-! ## The loss -/

/-- The mean over the eight subbatches of a per-subbatch pull term plus a per-subbatch push term. -/
def mean8 (a b : FVec Ideal S8 .f32) : FVec Ideal S_ .f32 :=
  Host.reduceAdd (F := Ideal)
    (Host.divf (F := Ideal) (addf (F := Ideal) a b)
      (broadcastInDim S8 ![] bcast_S_S8 (constant (F := Ideal) S_ .f32 0x41000000#32)))
    (constant (F := Ideal) S_ .f32 0x00000000#32) reducesTo_S8_S_d0 h_S_

/-- The loss from the pull terms `pl`, the counts `cn` (both per segment) and the centres `mu`. -/
def loss (pl cn : (⟨1, ![512]⟩ : Shape).Idx → EReal) (mu : (⟨2, ![512, 16]⟩ : Shape).Idx → EReal) :
    (⟨0, ![]⟩ : Shape).Idx → EReal :=
  mean8 (pullB pl cn) (pushB mu)

end Cert.Tail

end
-- ==== Proof.KTail.lean ====
/-
  The kernel program's last host stretch is the shared loss function of the pull terms, counts and centres it holds.
-/
import proofs.«419743_j24764781428790_1_alg».proof.Proof.Gen.KernelIdeal.Frame
import proofs.«419743_j24764781428790_1_alg».proof.Proof.Tail
import Idealize.ShloMosaic.Lib.StableHlo.Run
import Idealize.ShloMosaic.Lib.Pipeline.Value

noncomputable section

namespace Cert.KernelIdeal.TailK

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The three host stretches, each from any contents of the buffers -/

/-- The last stretch: the mean over the subbatches of the pull terms plus the push terms, the push terms being the squared
    hinges off the diagonal, summed and divided by 64 · 63. -/
theorem last_stretch (V : Valuation τ sig (Elt Ideal)) :
    StableHlo.after hostOps2_2 V (Proc.devRef .tc main_v47)
      = Cert.Tail.mean8 (V (Proc.devRef .tc main_v17))
          (Host.divf (F := Ideal)
            (Host.reduceAdd (F := Ideal)
              (mulf (F := Ideal) (mulf (F := Ideal) (V (Proc.devRef .tc main_v28)) (V (Proc.devRef .tc main_v28))) Cert.Tail.offDiag)
              (constant (F := Ideal) S_ .f32 0x00000000#32) reducesTo_S8x64x64_S8_d1_2 h_S_)
            (broadcastInDim S8 ![] bcast_S_S8 (constant (F := Ideal) S_ .f32 0x457C0000#32))) := by
  after_results_simp
  unfold Cert.Tail.mean8 Cert.Tail.offDiag
  rfl

/-- The middle stretch takes the maximum with zero, entry by entry. -/
theorem relu_stretch (V : Valuation τ sig (Elt Ideal)) :
    StableHlo.after hostOps2_1 V (Proc.devRef .tc main_v28)
      = maximumf (F := Ideal) (V (Proc.devRef .tc main_v27))
          (broadcastInDim S8x64x64 ![] bcast_S_S8x64x64 (constant (F := Ideal) S_ .f32 0x00000000#32)) := by
  after_results
  rfl

/-- The middle stretch leaves the per-subbatch pull terms as they were. -/
theorem relu_stretch_pull (V : Valuation τ sig (Elt Ideal)) :
    StableHlo.after hostOps2_1 V (Proc.devRef .tc main_v17) = V (Proc.devRef .tc main_v17) := by
  after_results

/-- The first stretch forms three minus the pairwise L1 distances of the centres. -/
theorem first_stretch_margin (V : Valuation τ sig (Elt Ideal)) :
    StableHlo.after hostOps2 V (Proc.devRef .tc main_v27)
      = subf (F := Ideal) (broadcastInDim S8x64x64 ![] bcast_S_S8x64x64 (constant (F := Ideal) S_ .f32 0x40400000#32))
          (Cert.Tail.dist (V (Proc.devRef .tc main_v8))) := by
  after_results_simp
  unfold Cert.Tail.dist
  rfl

/-- The first stretch forms the per-subbatch pull terms from the pull terms it has just summed and the counts. -/
theorem first_stretch_pull (V : Valuation τ sig (Elt Ideal)) :
    StableHlo.after hostOps2 V (Proc.devRef .tc main_v17)
      = Cert.Tail.pullB (StableHlo.after hostOps2 V (Proc.devRef .tc main_v11)) (V (Proc.devRef .tc main_v5)) := by
  after_results_simp
  unfold Cert.Tail.pullB
  rfl

/-! ## The counts and the centres pass the second kernel region unchanged -/

/-- The counts are no array of the second region. -/
theorem W4_counts (c : Dev nD) : W4 m ρ c (Proc.devRef .tc main_v5) = W3 m ρ c (Proc.devRef .tc main_v5) :=
  W4_of_ne m ρ c main_v5 (by decide)

/-- The centres are an input array of the second region. -/
theorem W4_centres (c : Dev nD) : W4 m ρ c (Proc.devRef .tc main_v8) = W3 m ρ c (Proc.devRef .tc main_v8) :=
  (W4_arr m ρ c 3).trans (((dat1 (V3 m ρ) c).arrAt_in 3 rfl _).trans (A_eq1 (V3 m ρ) c 3))

/-- The result buffer at the last boundary is the loss of the pull terms, counts and centres held at the earlier boundaries. -/
theorem kernel_tail (c : Dev nD) :
    W7 m ρ c (Proc.devRef .tc main_v47)
      = Cert.Tail.loss (W5 m ρ c (Proc.devRef .tc main_v11)) (W3 m ρ c (Proc.devRef .tc main_v5)) (W3 m ρ c (Proc.devRef .tc main_v8)) := by
  refine (last_stretch (W6 m ρ c)).trans ?_
  rw [show W6 m ρ c (Proc.devRef .tc main_v17) = W5 m ρ c (Proc.devRef .tc main_v17) from relu_stretch_pull (W5 m ρ c),
    show W6 m ρ c (Proc.devRef .tc main_v28) = _ from relu_stretch (W5 m ρ c),
    show W5 m ρ c (Proc.devRef .tc main_v17) = _ from first_stretch_pull (W4 m ρ c),
    show W5 m ρ c (Proc.devRef .tc main_v27) = _ from first_stretch_margin (W4 m ρ c),
    W4_counts, W4_centres]
  rfl

end Cert.KernelIdeal.TailK

end
-- ==== Proof.RefRead.lean ====
/-
  The reference program's run and its operations read one at a time: the generated run and read-at-an-index
  modules, gathered under one import for the modules that compare the reference with the kernel.
-/
import proofs.«419743_j24764781428790_1_alg».proof.Proof.Gen.ReferenceIdeal.Run
import proofs.«419743_j24764781428790_1_alg».proof.Proof.Gen.ReferenceIdeal.Read
-- ==== Proof.RefTail.lean ====
/-
  The reference's last operations are the shared loss function of its pull terms, counts and centres.
-/
import proofs.«419743_j24764781428790_1_alg».proof.Proof.RefRead
import proofs.«419743_j24764781428790_1_alg».proof.Proof.Tail

noncomputable section

namespace Cert.ReferenceIdeal.TailR

open Cert.ReferenceIdeal Cert.ReferenceIdeal.Read Cert.ReferenceIdeal.Gen
open Idealize.ShloMosaic Idealize.ShloMosaic.TcCoe Idealize.ShloMosaic.ValueIdx Idealize.SL.Sem

/-- Dividing the pull terms by sixty-four times the counts segment by segment and then arranging the quotients by subbatch
    and label is arranging both first and dividing entry by entry: a rearrangement reads each entry where it stood. -/
theorem pull_rearr (pl cn : FVec Ideal S512 .f32) :
    Host.reduceAdd (F := Ideal)
        (shapeCast S8x64
          (Host.divf (F := Ideal) pl
            (mulf (F := Ideal) (broadcastInDim S512 ![] bcast_S_S512 (constant (F := Ideal) S_ .f32 0x42800000#32)) cn))
          shapeCasts_S512_S8x64)
        (constant (F := Ideal) S_ .f32 0x00000000#32) reducesTo_S8x64_S8_d1 h_S_
      = Cert.Tail.pullB pl cn := by
  unfold Cert.Tail.pullB
  rfl

/-- The reference's per-subbatch pull term is the shared one of its scatter-added pull terms and its counts. -/
theorem ref_pull (x0 : (⟨S2000000x16, .f32⟩ : BufTy).Contents (Elt Ideal)) (x1 x2 : (⟨S2000000, .i32⟩ : BufTy).Contents (Elt Ideal)) :
    val_main_v40 (F := Ideal) x0 x1 x2
      = Cert.Tail.pullB (val_main_v35 (F := Ideal) x0 x1 x2) (val_main_v12 (F := Ideal) x1 x2) := by
  unfold val_main_v40 val_main_v39 val_main_v38 val_main_v37 val_main_v36 val_main_cst_8 val_main_cst_9
  exact pull_rearr _ _

/-- The reference's per-subbatch push term is the shared one of its centres: the same operations in the same order, so the
    two terms agree part by part once the centres are named. -/
theorem ref_push (x0 : (⟨S2000000x16, .f32⟩ : BufTy).Contents (Elt Ideal)) (x1 x2 : (⟨S2000000, .i32⟩ : BufTy).Contents (Elt Ideal)) :
    val_main_v66 (F := Ideal) x0 x1 x2 = Cert.Tail.pushB (val_main_v18 (F := Ideal) x0 x1 x2) := by
  unfold val_main_v66 val_main_v65 val_main_cst_15 val_main_v64 val_main_cst_14 val_main_v63 val_main_v62 val_main_v61 val_main_v60
    val_main_v59 val_main_cst_13 val_main_v58 val_main_v57 val_main_v56 val_main_v55 val_main_c_12 val_main_v54 val_main_v53
    val_main_v52 val_main_v51 val_main_call2_v0 val_main_call2_cst val_main_v50 val_main_v49 val_main_cst_11 val_main_v48
    val_main_cst_10 val_main_v47 val_main_v46 val_main_v45 val_main_v44 val_main_v43 val_main_v42 val_main_v41
  generalize val_main_v18 (F := Ideal) x0 x1 x2 = mu
  unfold Cert.Tail.pushB Cert.Tail.hingeP Cert.Tail.dist Cert.Tail.offDiag
  rfl

/-- The reference's result is the loss of its scatter-added pull terms, its counts and its centres. -/
theorem ref_tail (x0 : (⟨S2000000x16, .f32⟩ : BufTy).Contents (Elt Ideal)) (x1 x2 : (⟨S2000000, .i32⟩ : BufTy).Contents (Elt Ideal)) :
    val_main_v70 (F := Ideal) x0 x1 x2
      = Cert.Tail.loss (val_main_v35 (F := Ideal) x0 x1 x2) (val_main_v12 (F := Ideal) x1 x2) (val_main_v18 (F := Ideal) x0 x1 x2) := by
  unfold val_main_v70 val_main_v69 val_main_v68 val_main_cst_16 val_main_cst_17 val_main_v67
  rw [ref_pull, ref_push]
  rfl

end Cert.ReferenceIdeal.TailR

end
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«419743_j24764781428790_1_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.RefVals.lean ====
/-
  The reference's counts and centres, entry by entry.

  The counts are a scatter-add of ones into zeros at the segment words, the sums a scatter-add of the unit rows: at
  segment s each holds the sum over the points whose word, read signed, is s (an update whose word names no segment lands
  nowhere), which is the sum over all points weighted by the segment's indicator.
-/
import proofs.«419743_j24764781428790_1_alg».proof.Proof.RefRead
import proofs.«419743_j24764781428790_1_alg».proof.Proof.Spec
import proofs.«419743_j24764781428790_1_alg».proof.Proof.LibScatter
import Idealize.ShloMosaic.Lib.IdealHost

noncomputable section

namespace Cert.ReferenceIdeal.Vals

open Cert.ReferenceIdeal Cert.ReferenceIdeal.Read Cert.Spec
open Idealize.ShloMosaic Idealize.ShloMosaic.TcCoe Idealize.ShloMosaic.ValueIdx Idealize.SL.Sem

/-- The reference's segment word of point n. -/
theorem ref_seg (x1 x2 : (⟨S2000000, .i32⟩ : BufTy).Contents (Elt Ideal)) (n : Fin 2000000) :
    val_main_v8 (F := Ideal) x1 x2 (ix1 n) = segOf x1 x2 n.val := by
  -- the word is the subbatch word times the broadcast constant sixty-four, plus the label word
  rw [val_main_v8_apply, val_main_v7_apply, val_main_v6_apply, val_main_c_apply]
  unfold segOf wordsOf
  rw [dif_pos n.isLt, dif_pos n.isLt]
  rfl

/-! ## Index arithmetic of the broadcasts -/

/-- Row n, column k: the element the row sum of the row of (n, d) reads, through the two broadcasts back to the row. -/
theorem idx_row (n : Fin 2000000) (d k : Fin 16) :
    idx_main_call0_v1 (idx_main_v3 (idx_main_v4 (ix2 n d))) k = ix2 n k := by
  funext a
  match a with
  | ⟨0, _⟩ => rfl
  | ⟨1, _⟩ => rfl

/-- The column entry [e, 0] of the first copy of the segment words reads word e. -/
theorem idx_col11 (e : Fin 2000000) : idx_main_v11 (ix2 e (0 : Fin 1)) = ix1 e := by
  funext a
  match a with
  | ⟨0, _⟩ => rfl

/-- The column entry [e, 0] of the second copy of the segment words reads word e. -/
theorem idx_col14 (e : Fin 2000000) : idx_main_v14 (ix2 e (0 : Fin 1)) = ix1 e := by
  funext a
  match a with
  | ⟨0, _⟩ => rfl

/-- The count broadcast to (s, d) reads the count of s. -/
theorem idx_cnt (s : Fin 512) (d : Fin 16) : idx_main_v16 (idx_main_v17 (ix2 s d)) = ix1 s := by
  funext a
  match a with
  | ⟨0, _⟩ => rfl

/-- The reference's unit row of point n, coordinate d. -/
theorem ref_unit (x0 : (⟨S2000000x16, .f32⟩ : BufTy).Contents (Elt Ideal)) (n : Fin 2000000) (d : Fin 16) :
    val_main_v5 (F := Ideal) x0 (ix2 n d) = unitRow (rowsOf x0 n.val) d := by
  -- the divisor at (n, d) is the length of row n plus the guard, broadcast along the row
  rw [val_main_v5_apply, val_main_v4_apply, val_main_v3_apply, val_main_v2_apply, val_main_v0_apply,
    val_main_call0_v1_apply, val_main_v1_apply, val_main_cst_apply, val_main_call0_cst_apply]
  simp only [val_main_call0_v0_apply, idx_row]
  unfold unitRow rowsOf
  simp only [dif_pos n.isLt]
  simp only [Ideal.hostDivf_def, Ideal.hostUnary_sqrt_def, Ideal.addf_def, Ideal.mulf_def, Ideal.ofBits_def,
    Ideal.ofBits_zero_f32, zero_add]

/-! ## The two scatters -/

/-- The element scatter's printed dimension numbers are the library's record field by field. -/
theorem vecDims_eq :
    (scatter_S512_S2000000x1_S2000000_n_0_0_1 : ScatterDims S512 S2000000x1 S2000000)
      = Cert.Gcn.vecScatterDims 512 2000000 Facts₀.scatter_S512_S2000000x1_S2000000_n_0_0_1_wf := rfl

/-- The row scatter's printed dimension numbers are the library's record field by field. -/
theorem rowDims_eq :
    (scatter_S512x16_S2000000x1_S2000000x16_1_0_0_1 : ScatterDims S512x16 S2000000x1 S2000000x16)
      = Cert.Gcn.rowScatterDims 512 2000000 16 Facts₀.scatter_S512x16_S2000000x1_S2000000x16_1_0_0_1_wf := rfl

/-- The counts are the element scatter-add of the ones into the zeros at the segment words. -/
theorem v12_eq (x1 x2 : (⟨S2000000, .i32⟩ : BufTy).Contents (Elt Ideal)) :
    val_main_v12 (F := Ideal) x1 x2
      = Ideal.hostScatterAdd scatter_S512_S2000000x1_S2000000_n_0_0_1
          (val_main_v10 (F := Ideal)) (val_main_v11 (F := Ideal) x1 x2) (val_main_v9 (F := Ideal)) := rfl

/-- The reference's count of segment s. -/
theorem ref_cnt (x1 x2 : (⟨S2000000, .i32⟩ : BufTy).Contents (Elt Ideal)) (s : Fin 512) :
    val_main_v12 (F := Ideal) x1 x2 (ix1 s) = cnt (segOf x1 x2) s := by
  rw [v12_eq, vecDims_eq, Cert.Gcn.scatterAddVec_apply]
  -- the operand is zero, every update is one, and the index word of update e is the segment word of point e
  rw [val_main_v10_apply, val_main_cst_1_apply, Ideal.ofBits_def, Ideal.ofBits_zero_f32, zero_add]
  rw [Finset.filter_congr (q := fun e : Fin 2000000 => (segOf x1 x2 e.val).toInt = (s.val : Int))
    (fun e _ => by rw [val_main_v11_apply, idx_col11, ref_seg])]
  rw [Finset.sum_congr rfl (g := fun _ : Fin 2000000 => (1 : EReal))
    (fun e _ => by rw [val_main_v9_apply, val_main_cst_0_apply, Ideal.ofBits_def, Ideal.ofBits_one_f32])]
  -- the sum over the points of segment s is the sum over all points weighted by the indicator of s
  unfold cnt
  rw [← (tot_hot_eq_filter (segOf x1 x2) (fun _ => (1 : EReal)) s)]
  simp only [mul_one]

/-- The sums are the row scatter-add of the unit rows into the zeros at the segment words. -/
theorem v15_eq (x0 : (⟨S2000000x16, .f32⟩ : BufTy).Contents (Elt Ideal)) (x1 x2 : (⟨S2000000, .i32⟩ : BufTy).Contents (Elt Ideal)) :
    val_main_v15 (F := Ideal) x0 x1 x2
      = Ideal.hostScatterAdd scatter_S512x16_S2000000x1_S2000000x16_1_0_0_1
          (val_main_v13 (F := Ideal)) (val_main_v14 (F := Ideal) x1 x2) (val_main_v5 (F := Ideal) x0) := rfl

/-- The reference's sum of the unit rows of segment s, coordinate d. -/
theorem ref_msum (x0 : (⟨S2000000x16, .f32⟩ : BufTy).Contents (Elt Ideal)) (x1 x2 : (⟨S2000000, .i32⟩ : BufTy).Contents (Elt Ideal))
    (s : Fin 512) (d : Fin 16) :
    val_main_v15 (F := Ideal) x0 x1 x2 (ix2 s d) = msum (rowsOf x0) (segOf x1 x2) s d := by
  rw [v15_eq, rowDims_eq, Cert.Gcn.scatterAddRows_apply]
  -- the operand is zero, update row e is the unit row of point e, and its index word is the segment word of point e
  rw [val_main_v13_apply, val_main_cst_2_apply, Ideal.ofBits_def, Ideal.ofBits_zero_f32, zero_add]
  rw [Finset.filter_congr (q := fun e : Fin 2000000 => (segOf x1 x2 e.val).toInt = (s.val : Int))
    (fun e _ => by rw [val_main_v14_apply, idx_col14, ref_seg])]
  rw [Finset.sum_congr rfl (g := fun e : Fin 2000000 => unitRow (rowsOf x0 e.val) d)
    (fun e _ => ref_unit x0 e d)]
  -- the sum over the points of segment s is the sum over all points weighted by the indicator of s
  unfold msum
  rw [← (tot_hot_eq_filter (segOf x1 x2) (fun n => unitRow (rowsOf x0 n) d) s)]

/-- The reference's centre of segment s, coordinate d. -/
theorem ref_mu (x0 : (⟨S2000000x16, .f32⟩ : BufTy).Contents (Elt Ideal)) (x1 x2 : (⟨S2000000, .i32⟩ : BufTy).Contents (Elt Ideal))
    (s : Fin 512) (d : Fin 16) :
    val_main_v18 (F := Ideal) x0 x1 x2 (ix2 s d) = mu (rowsOf x0) (segOf x1 x2) s d := by
  -- the sum over the count, the count broadcast along the row
  rw [val_main_v18_apply, val_main_v17_apply, val_main_v16_apply, idx_cnt, ref_cnt, ref_msum, Ideal.hostDivf_def]
  rfl

end Cert.ReferenceIdeal.Vals

end
-- ==== Proof.RefPull.lean ====
/-
  The reference's pull terms, entry by entry.

  Each point's centre row is gathered from the centres at its segment word (a negative word wrapped by 512, then clamped
  into the table); the squared hinges are scatter-added at the segment words. A point whose word names no segment is dropped
  by the scatter, and for a point of segment s the gathered row is row s: the row the indicator selects.
-/
import proofs.«419743_j24764781428790_1_alg».proof.Proof.RefRead
import proofs.«419743_j24764781428790_1_alg».proof.Proof.Spec
import proofs.«419743_j24764781428790_1_alg».proof.Proof.LibScatter
import proofs.«419743_j24764781428790_1_alg».proof.Proof.RefVals

noncomputable section

namespace Cert.ReferenceIdeal.Pull

open Cert.ReferenceIdeal Cert.ReferenceIdeal.Read Cert.Spec
open Idealize.ShloMosaic Idealize.ShloMosaic.TcCoe Idealize.ShloMosaic.ValueIdx Idealize.SL.Sem

/-- Row `e` of a one-column array is read from the vector at `e`. -/
theorem col_idx (e : Fin 2000000) : idx_main_v34 (ix2 e (0 : Fin 1)) = ix1 e := by
  funext a
  refine Fin.ext ?_
  match a with
  | ⟨0, _⟩ => rfl

/-- The same for the column of gather rows. -/
theorem col_idx' (e : Fin 2000000) : idx_main_v24 (ix2 e (0 : Fin 1)) = ix1 e := by
  funext a
  refine Fin.ext ?_
  match a with
  | ⟨0, _⟩ => rfl

/-- The sum over the sixteen coordinates of point `e` reads the operand at `(e, k)`. -/
theorem red_idx (e : Fin 2000000) (k : Fin 16) : idx_main_v28 (ix1 e) k = ix2 e k := by
  funext a
  refine Fin.ext ?_
  match a with
  | ⟨0, _⟩ => rfl
  | ⟨1, _⟩ => rfl

/-- The scatter's index column at row `e` is the segment word of point `e`. -/
theorem scatter_word (x1 x2 : (⟨S2000000, .i32⟩ : BufTy).Contents (Elt Ideal)) (e : Fin 2000000) :
    val_main_v34 (F := Ideal) x1 x2 (ix2 e (0 : Fin 1)) = segOf x1 x2 e.val := by
  rw [val_main_v34_apply, col_idx]
  exact Vals.ref_seg x1 x2 e

/-- For a point of segment `s` the gather's row word is the segment word itself: the word is not negative, so it is not
    wrapped. -/
theorem gather_word (x1 x2 : (⟨S2000000, .i32⟩ : BufTy).Contents (Elt Ideal)) (e : Fin 2000000) (s : Fin 512)
    (h : (segOf x1 x2 e.val).toInt = (s.val : Int)) :
    val_main_v24 (F := Ideal) x1 x2 (ix2 e (0 : Fin 1)) = segOf x1 x2 e.val := by
  rw [val_main_v24_apply, col_idx', val_main_v23_apply, val_main_v20_apply, val_main_v19_apply, val_main_c_3_apply,
    Vals.ref_seg]
  have hn : IntOp.cmpi .slt (segOf x1 x2 e.val) 0#32 = 0#1 := by
    have hlt : ¬ (segOf x1 x2 e.val).toInt < (0#32 : BitVec 32).toInt := by
      rw [h]
      simp
    simp only [IntOp.cmpi, BitVec.slt, decide_eq_false hlt]
    rfl
  rw [hn, select_zero]

/-- The gather's printed dimension numbers are the row gather's record field by field. -/
theorem gatherDims_eq :
    (gather_S512x16_S2000000x1_S2000000x16_1_0_n_n_0_1_116 : GatherDims S512x16 S2000000x1 S2000000x16)
      = Cert.Gcn.rowGatherDims 512 2000000 16 Facts₀.gather_S512x16_S2000000x1_S2000000x16_1_0_n_n_0_1_116_wf := rfl

/-- The gathered rows are the row gather of the centres at the column of row words. -/
theorem v25_eq (x0 : (⟨S2000000x16, .f32⟩ : BufTy).Contents (Elt Ideal)) (x1 x2 : (⟨S2000000, .i32⟩ : BufTy).Contents (Elt Ideal)) :
    val_main_v25 (F := Ideal) x0 x1 x2
      = Host.gather gather_S512x16_S2000000x1_S2000000x16_1_0_n_n_0_1_116
          (val_main_v18 (F := Ideal) x0 x1 x2) (val_main_v24 (F := Ideal) x1 x2) := rfl

/-- For a point of segment `s` the gathered centre row is row `s` of the centres. -/
theorem gathered_row (x0 : (⟨S2000000x16, .f32⟩ : BufTy).Contents (Elt Ideal)) (x1 x2 : (⟨S2000000, .i32⟩ : BufTy).Contents (Elt Ideal))
    (e : Fin 2000000) (s : Fin 512) (h : (segOf x1 x2 e.val).toInt = (s.val : Int)) (d : Fin 16) :
    val_main_v25 (F := Ideal) x0 x1 x2 (ix2 e d) = val_main_v18 (F := Ideal) x0 x1 x2 (ix2 s d) := by
  rw [v25_eq, gatherDims_eq]
  generalize val_main_v18 (F := Ideal) x0 x1 x2 = M
  have hv := gather_word x1 x2 e s h
  generalize val_main_v24 (F := Ideal) x1 x2 = idx at hv
  rw [Cert.Gcn.gatherRows_apply (by decide : 0 < 512)]
  show M (ix2 (Cert.Gcn.crow 512 _ (idx (ix2 e 0))) d) = M (ix2 s d)
  rw [hv]
  have hc : Cert.Gcn.crow 512 (by decide) (segOf x1 x2 e.val) = s := by
    refine Fin.ext ?_
    have := Cert.Gcn.crow_val_of_range (N := 512) (by decide) (segOf x1 x2 e.val) (by omega) (by omega)
    omega
  rw [hc]

/-- The squared hinge the reference computes for a point of segment `s`: against the centre row its word selects. -/
theorem hinge_at (x0 : (⟨S2000000x16, .f32⟩ : BufTy).Contents (Elt Ideal)) (x1 x2 : (⟨S2000000, .i32⟩ : BufTy).Contents (Elt Ideal))
    (e : Fin 2000000) (s : Fin 512) (h : (segOf x1 x2 e.val).toInt = (s.val : Int)) :
    val_main_v32 (F := Ideal) x0 x1 x2 (ix1 e)
      = hinge (unitRow (rowsOf x0 e.val)) (mix (segOf x1 x2 e.val) (tableOf (val_main_v18 (F := Ideal) x0 x1 x2))) := by
  have hw : BitVec.ofNat 32 s.val = segOf x1 x2 e.val := (hot_eq_one_iff _ s).mpr h
  -- the sum of absolute differences: the zero initial value drops, and each term is |c d - u d| = max (c d - u d) (-(c d - u d))
  have hsum : val_main_v28 (F := Ideal) x0 x1 x2 (ix1 e)
      = ∑ d : Fin 16, max (mix (segOf x1 x2 e.val) (tableOf (val_main_v18 (F := Ideal) x0 x1 x2)) d - unitRow (rowsOf x0 e.val) d)
          (-(mix (segOf x1 x2 e.val) (tableOf (val_main_v18 (F := Ideal) x0 x1 x2)) d - unitRow (rowsOf x0 e.val) d)) := by
    rw [val_main_v28_apply, val_main_cst_5_apply, Ideal.ofBits_def, Ideal.ofBits_zero_f32, zero_add]
    refine Finset.sum_congr rfl fun d _ => ?_
    rw [red_idx, val_main_v27_apply, val_main_v26_apply, gathered_row x0 x1 x2 e s h d, Vals.ref_unit,
      Ideal.hostAbsf_def, Ideal.absf_def, Ideal.subf_def, mix_of_hot _ _ s hw d]
    simp only [tableOf]
  rw [val_main_v32_apply, val_main_v31_apply, val_main_v30_apply, val_main_v29_apply, val_main_cst_6_apply,
    val_main_call1_v0_apply, val_main_call1_cst_apply, hsum]
  simp only [Ideal.mulf_def, Ideal.maximumf_def, Ideal.subf_def, Ideal.ofBits_def, hinge]

/-- The element scatter's printed dimension numbers are the element scatter's record field by field. -/
theorem scatterDims_eq :
    (scatter_S512_S2000000x1_S2000000_n_0_0_1 : ScatterDims S512 S2000000x1 S2000000)
      = Cert.Gcn.vecScatterDims 512 2000000 Facts₀.scatter_S512_S2000000x1_S2000000_n_0_0_1_wf := rfl

/-- The pull terms are the element scatter-add of the squared hinges into the zeros at the segment words. -/
theorem v35_eq (x0 : (⟨S2000000x16, .f32⟩ : BufTy).Contents (Elt Ideal)) (x1 x2 : (⟨S2000000, .i32⟩ : BufTy).Contents (Elt Ideal)) :
    val_main_v35 (F := Ideal) x0 x1 x2
      = Ideal.hostScatterAdd scatter_S512_S2000000x1_S2000000_n_0_0_1
          (val_main_v33 (F := Ideal)) (val_main_v34 (F := Ideal) x1 x2) (val_main_v32 (F := Ideal) x0 x1 x2) := rfl

/-- The reference's pull term of segment s, against its own centres. -/
theorem ref_pull (x0 : (⟨S2000000x16, .f32⟩ : BufTy).Contents (Elt Ideal)) (x1 x2 : (⟨S2000000, .i32⟩ : BufTy).Contents (Elt Ideal))
    (s : Fin 512) :
    val_main_v35 (F := Ideal) x0 x1 x2 (ix1 s)
      = pull (rowsOf x0) (segOf x1 x2) (tableOf (val_main_v18 (F := Ideal) x0 x1 x2)) s := by
  -- the scatter-add at s: the zero operand plus the squared hinges of the points whose word, read signed, is s
  rw [v35_eq, scatterDims_eq, Cert.Gcn.scatterAddVec_apply, val_main_v33_apply, val_main_cst_7_apply, Ideal.ofBits_def, Ideal.ofBits_zero_f32, zero_add]
  unfold pull
  rw [tot_hot_eq_filter]
  refine Finset.sum_congr (Finset.filter_congr fun e _ => by rw [scatter_word]) fun e he => ?_
  exact hinge_at x0 x1 x2 e s (Finset.mem_filter.mp he).2

end Cert.ReferenceIdeal.Pull

end
-- ==== Proof.Claims.lean ====
/-
  The claims, assembled.

  Both programs end at the shared loss function of three per-segment arrays: the pull terms, the counts and the centres.
  For the kernel program these are what its two regions and the host sums between them leave (the counts and the sums of
  unit rows accumulated block by block over two halves of the points, the centres their quotient, the pull terms accumulated
  the same way against those centres); for the reference they are scatter-adds at the segment words and a gather of the
  centres. Entry by entry both are the same sums over all points weighted by the segments' indicators, so the two results
  are one extended real. The three frames are the generated ones (the reference's: its run with the result dropped), and the
  idealization rewrote nothing.
-/
import proofs.«419743_j24764781428790_1_alg».proof.Defs
import proofs.«419743_j24764781428790_1_alg».proof.Proof.Gen.Pre_finite_inputs
import proofs.«419743_j24764781428790_1_alg».proof.Proof.Gen.Kernel.Frame
import proofs.«419743_j24764781428790_1_alg».proof.Proof.Gen.KernelIdeal.Frame
import proofs.«419743_j24764781428790_1_alg».proof.Proof.RunValue
import proofs.«419743_j24764781428790_1_alg».proof.Proof.KHost
import proofs.«419743_j24764781428790_1_alg».proof.Proof.KTail
import proofs.«419743_j24764781428790_1_alg».proof.Proof.RefRead
import proofs.«419743_j24764781428790_1_alg».proof.Proof.RefTail
import proofs.«419743_j24764781428790_1_alg».proof.Proof.RefVals
import proofs.«419743_j24764781428790_1_alg».proof.Proof.RefPull

noncomputable section

open Idealize.ShloMosaic Idealize.ShloMosaic.TcCoe Idealize.ShloMosaic.ValueIdx Idealize.SL.Sem

namespace Cert.Proof.Bridge

open Cert.Spec

/-- The counts per segment, as an array. -/
def CN (lab sub : (⟨1, ![2000000]⟩ : Shape).Idx → BitVec 32) : (⟨1, ![512]⟩ : Shape).Idx → EReal :=
  fun i => cnt (segOf lab sub) ⟨(i 0).val, (i 0).isLt⟩

/-- The centres per segment, as an array. -/
def MU (X : (⟨2, ![2000000, 16]⟩ : Shape).Idx → EReal) (lab sub : (⟨1, ![2000000]⟩ : Shape).Idx → BitVec 32) :
    (⟨2, ![512, 16]⟩ : Shape).Idx → EReal :=
  fun i => mu (rowsOf X) (segOf lab sub) ⟨(i 0).val, (i 0).isLt⟩ ⟨(i 1).val, (i 1).isLt⟩

/-- The pull terms per segment against those centres, as an array. -/
def PL (X : (⟨2, ![2000000, 16]⟩ : Shape).Idx → EReal) (lab sub : (⟨1, ![2000000]⟩ : Shape).Idx → BitVec 32) :
    (⟨1, ![512]⟩ : Shape).Idx → EReal :=
  fun i => pull (rowsOf X) (segOf lab sub) (tableOf (MU X lab sub)) ⟨(i 0).val, (i 0).isLt⟩

/-! ### The kernel program holds these three arrays -/

section Kernel

open Cert.KernelIdeal Cert.KernelIdeal.Gen Cert.KernelIdeal.View

variable (m : (ℓ : Loc nD τ sig) → Buf (Elt Ideal) ℓ) (ρ : Dev nD → PrngReg)

theorem kernel_cn (c : Dev nD) :
    W3 m ρ c (Proc.devRef .tc main_v5) = CN (m ((c : Thread nD τ).loc main_arg1)) (m ((c : Thread nD τ).loc main_arg2)) := by
  funext i
  obtain ⟨s, rfl⟩ : ∃ s : Fin 512, i = ix1 s := ⟨i 0, eq_ix1 i⟩
  exact Cert.KernelIdeal.Host.cnt_apply m ρ c s

theorem kernel_mu (c : Dev nD) :
    W3 m ρ c (Proc.devRef .tc main_v8)
      = MU (m ((c : Thread nD τ).loc main_arg0)) (m ((c : Thread nD τ).loc main_arg1)) (m ((c : Thread nD τ).loc main_arg2)) := by
  funext i
  obtain ⟨s, d, rfl⟩ : ∃ (s : Fin 512) (d : Fin 16), i = ix2 s d := ⟨i 0, i 1, eq_ix2 i⟩
  exact Cert.KernelIdeal.Host.mu_apply m ρ c s d

theorem kernel_pl (c : Dev nD) :
    W5 m ρ c (Proc.devRef .tc main_v11)
      = PL (m ((c : Thread nD τ).loc main_arg0)) (m ((c : Thread nD τ).loc main_arg1)) (m ((c : Thread nD τ).loc main_arg2)) := by
  funext i
  obtain ⟨s, rfl⟩ : ∃ s : Fin 512, i = ix1 s := ⟨i 0, eq_ix1 i⟩
  refine (Cert.KernelIdeal.Host.pull_apply m ρ c s).trans ?_
  rw [kernel_mu m ρ c]
  rfl

/-- The kernel program's result: the loss of the three arrays of its launch arguments. -/
theorem kernel_result (c : Dev nD) :
    W7 m ρ c (Proc.devRef .tc main_v47)
      = Cert.Tail.loss
          (PL (m ((c : Thread nD τ).loc main_arg0)) (m ((c : Thread nD τ).loc main_arg1)) (m ((c : Thread nD τ).loc main_arg2)))
          (CN (m ((c : Thread nD τ).loc main_arg1)) (m ((c : Thread nD τ).loc main_arg2)))
          (MU (m ((c : Thread nD τ).loc main_arg0)) (m ((c : Thread nD τ).loc main_arg1)) (m ((c : Thread nD τ).loc main_arg2))) := by
  rw [Cert.KernelIdeal.TailK.kernel_tail m ρ c, kernel_pl m ρ c, kernel_cn m ρ c, kernel_mu m ρ c]

end Kernel

/-! ### The reference holds the same three arrays -/

section Reference

open Cert.ReferenceIdeal Cert.ReferenceIdeal.Read

variable (x0 : (⟨S2000000x16, .f32⟩ : BufTy).Contents (Elt Ideal)) (x1 x2 : (⟨S2000000, .i32⟩ : BufTy).Contents (Elt Ideal))

theorem ref_cn : val_main_v12 (F := Ideal) x1 x2 = CN x1 x2 := by
  funext i
  obtain ⟨s, rfl⟩ : ∃ s : Fin 512, i = ix1 s := ⟨i 0, eq_ix1 i⟩
  exact Cert.ReferenceIdeal.Vals.ref_cnt x1 x2 s

theorem ref_mu : val_main_v18 (F := Ideal) x0 x1 x2 = MU x0 x1 x2 := by
  funext i
  obtain ⟨s, d, rfl⟩ : ∃ (s : Fin 512) (d : Fin 16), i = ix2 s d := ⟨i 0, i 1, eq_ix2 i⟩
  exact Cert.ReferenceIdeal.Vals.ref_mu x0 x1 x2 s d

theorem ref_pl : val_main_v35 (F := Ideal) x0 x1 x2 = PL x0 x1 x2 := by
  funext i
  obtain ⟨s, rfl⟩ : ∃ s : Fin 512, i = ix1 s := ⟨i 0, eq_ix1 i⟩
  refine (Cert.ReferenceIdeal.Pull.ref_pull x0 x1 x2 s).trans ?_
  rw [ref_mu x0 x1 x2]
  rfl

/-- The reference's result: the loss of the three arrays of its arguments. -/
theorem ref_result : val_main_v70 (F := Ideal) x0 x1 x2 = Cert.Tail.loss (PL x0 x1 x2) (CN x1 x2) (MU x0 x1 x2) := by
  rw [Cert.ReferenceIdeal.TailR.ref_tail x0 x1 x2, ref_pl x0 x1 x2, ref_cn x1 x2, ref_mu x0 x1 x2]

end Reference

end Cert.Proof.Bridge

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at the loss of the same three arrays. -/
theorem algebraic : Cert.algebraic_KernelIdeal_ReferenceIdeal := by
  intro m ρ m' ρ' _ hagree
  refine ⟨fun c => Cert.KernelIdeal.Gen.W7 m ρ c (Proc.devRef .tc Cert.KernelIdeal.main_v47), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.Proof.Bridge.ref_result, (hagree c).1, (hagree c).2.1, (hagree c).2.2]
  exact (Cert.Proof.Bridge.kernel_result m ρ c).symm

end Cert.Proof.Claims

end
-- ==== Proof.lean ====
/-
  The certificate of a discriminative loss over two million sixteen-dimensional points: the kernel program accumulates,
  per (subbatch, label) segment, the number of points, the sum of their unit rows and, in a second pass against the
  segments' centres, the sum of squared hinge distances, by one-hot matrix products block by block over two halves of
  the points; the reference forms the same per-segment sums by scatter-adds and a gather. The witnesses of the programs'
  stated side conditions are the generated instances; the three frames, the (empty) idealization ledger and the equality
  of the two results over the extended reals are in `Proof/Claims.lean`.
-/
import proofs.«419743_j24764781428790_1_alg».proof.Defs
import proofs.«419743_j24764781428790_1_alg».proof.Proof.Gen.Kernel
import proofs.«419743_j24764781428790_1_alg».proof.Proof.Gen.KernelIdeal
import proofs.«419743_j24764781428790_1_alg».proof.Proof.Gen.ReferenceIdeal
import proofs.«419743_j24764781428790_1_alg».proof.Proof.Gen.Pre_finite_inputs
import proofs.«419743_j24764781428790_1_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
